-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x2048 : Shape := ⟨2, ![10000, 2048]⟩
abbrev S10000x128 : Shape := ⟨2, ![10000, 128]⟩
abbrev S_ : Shape := ⟨0, ![]⟩

class Facts : Prop where
  bcast_S_S10000x2048 : S_.BroadcastsInDim S10000x2048 (![] : Fin 0 → Fin S10000x2048.rank)
  reducesTo_S10000x2048_S_d0_1 : S10000x2048.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_

variable [Facts]

def fn {F : FTy → Type} [FloatOps F] (main_arg0 : FVec F S10000x2048 .f32) (main_arg1 : FVec F S10000x128 .f32) : IVec S_ 1 :=
  let main_v0 : FVec F S10000x2048 .f32 := Host.absf main_arg0
  let main_cst : FVec F S_ .f32 := constant S_ .f32 0x7F800000#32
  let main_v1 : FVec F S10000x2048 .f32 := broadcastInDim S10000x2048 ![] bcast_S_S10000x2048 main_cst
  let main_v2 : IVec S10000x2048 1 := cmpf .olt main_v0 main_v1
  let main_c : IVec S_ 1 := constantI S_ 1 1#1
  let main_v3 : IVec S_ 1 := (fun x v => Host.reduce IntOp.andi x v reducesTo_S10000x2048_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  main_v8
-- ==== Kernel.lean ====
abbrev S10000x2048 : Shape := ⟨2, ![10000, 2048]⟩
abbrev S10000x128 : Shape := ⟨2, ![10000, 128]⟩
abbrev S10000x256 : Shape := ⟨2, ![10000, 256]⟩
abbrev S256x128 : Shape := ⟨2, ![256, 128]⟩

abbrev nBuf : Space → Nat
  | .hbm => 3
  | .vmem => 8
  | .smem => 0
  | _ => 0

abbrev bufTy : (tb : Table) → Fin (tcTables nBuf tb) → BufTy
  | .hbm, ⟨0, _⟩ => ⟨S10000x2048, .f32⟩
  | .hbm, ⟨1, _⟩ => ⟨S10000x128, .f32⟩
  | .hbm, ⟨2, _⟩ => ⟨S10000x128, .f32⟩
  | .local _ .vmem, ⟨0, _⟩ => ⟨S10000x256, .f32⟩
  | .local _ .vmem, ⟨1, _⟩ => ⟨S10000x256, .f32⟩
  | .local _ .vmem, ⟨2, _⟩ => ⟨S10000x256, .f32⟩
  | .local _ .vmem, ⟨3, _⟩ => ⟨S10000x256, .f32⟩
  | .local _ .vmem, ⟨4, _⟩ => ⟨S10000x128, .f32⟩
  | .local _ .vmem, ⟨5, _⟩ => ⟨S10000x128, .f32⟩
  | .local _ .vmem, ⟨6, _⟩ => ⟨S10000x128, .bf16⟩
  | .local _ .vmem, ⟨7, _⟩ => ⟨S10000x128, .bf16⟩
  | _, _ => ⟨S10000x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![4], ![false]⟩

def k0_cond4 (i : grid0.Coords) : BitVec 1 :=
  let arg0 : BitVec 32 := BitVec.ofNat 32 (i 0).val
  let c3_i32_13 : BitVec 32 := 3#32
  let v24 : BitVec 1 := Scalar.cmpi .eq arg0 c3_i32_13
  let v25 : BitVec 32 := Scalar.extui v24
  let c0_i32_14 : BitVec 32 := 0#32
  let v26 : BitVec 1 := Scalar.cmpi .ne v25 c0_i32_14
  v26

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S10000x256_S10000x256_0_0 : ∀ a, (![0, 0] : Fin 2 → Nat) a + S10000x256.size a ≤ S10000x256.size a
  h_S10000x256 : 0 < S10000x256.numel
  dot_S10000x256_S10000x128_S256x128_0_0_1_1_n_n_wf : DotDims.WF S10000x256 S10000x128 S256x128 [0] [0] [1] [1] [] []
  dot_S10000x256_S256x128_S10000x128_1_0_0_1_n_n_wf : DotDims.WF S10000x256 S256x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S10000x2048.size a
  hwx0_0 : ∀ i : grid0.Coords, EltTy.bits .f32 = 32 ∨ (Rect.block (s := S10000x2048) S10000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x2048.size a
  hwx0_1 : ∀ i : grid0.Coords, EltTy.bits .f32 = 32 ∨ (Rect.block (s := S10000x2048) S10000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S10000x128.size a
  hwx0_3 : ∀ i : grid0.Coords, EltTy.bits .f32 = 32 ∨ (Rect.block (s := S10000x128) S10000x128.size (cc0_transform_3 i) (hinb0_3 i)).WholeWords (EltTy.packing .f32)

variable [Facts₀]

def dot_S10000x256_S10000x128_S256x128_0_0_1_1_n_n : DotDims S10000x256 S10000x128 S256x128 where
  lhsContracting := [0]
  rhsContracting := [0]
  lhsNonContracting := [1]
  rhsNonContracting := [1]
  lhsBatch := []
  rhsBatch := []
  wf := dot_S10000x256_S10000x128_S256x128_0_0_1_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S10000x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond4 i == 1#1) | ⟨_ + 4, h⟩ => absurd h (Nat.not_lt.2 (Nat.le_add_left _ _))

class Facts : Prop extends Facts₀ where

variable [Facts]
-- ==== ReferenceIdeal.lean ====
abbrev S10000x2048 : Shape := ⟨2, ![10000, 2048]⟩
abbrev S10000x128 : Shape := ⟨2, ![10000, 128]⟩
abbrev S2048x10000 : Shape := ⟨2, ![2048, 10000]⟩
abbrev S2048x128 : Shape := ⟨2, ![2048, 128]⟩

abbrev nBuf : Space → Nat
  | .hbm => 5
  | .vmem => 0
  | .smem => 0
  | _ => 0

abbrev bufTy : (tb : Table) → Fin (tcTables nBuf tb) → BufTy
  | .hbm, ⟨0, _⟩ => ⟨S10000x2048, .f32⟩
  | .hbm, ⟨1, _⟩ => ⟨S10000x128, .f32⟩
  | .hbm, ⟨2, _⟩ => ⟨S2048x10000, .f32⟩
  | .hbm, ⟨3, _⟩ => ⟨S2048x128, .f32⟩
  | .hbm, ⟨4, _⟩ => ⟨S10000x128, .f32⟩
  | _, _ => ⟨S10000x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  transposes_S10000x2048_S2048x10000_1_0 : S10000x2048.Transposes [1, 0] S2048x10000
  dot_S2048x10000_S10000x128_S2048x128_1_0_0_1_n_n_wf : DotDims.WF S2048x10000 S10000x128 S2048x128 [1] [0] [0] [1] [] []
  dot_S10000x2048_S2048x128_S10000x128_1_0_0_1_n_n_wf : DotDims.WF S10000x2048 S2048x128 S10000x128 [1] [0] [0] [1] [] []

variable [Facts₀]

def dot_S2048x10000_S10000x128_S2048x128_1_0_0_1_n_n : DotDims S2048x10000 S10000x128 S2048x128 where
  lhsContracting := [1]
  rhsContracting := [0]
  lhsNonContracting := [0]
  rhsNonContracting := [1]
  lhsBatch := []
  rhsBatch := []
  wf := dot_S2048x10000_S10000x128_S2048x128_1_0_0_1_n_n_wf
def dot_S10000x2048_S2048x128_S10000x128_1_0_0_1_n_n : DotDims S10000x2048 S2048x128 S10000x128 where
  lhsContracting := [1]
  rhsContracting := [0]
  lhsNonContracting := [0]
  rhsNonContracting := [1]
  lhsBatch := []
  rhsBatch := []
  wf := dot_S10000x2048_S2048x128_S10000x128_1_0_0_1_n_n_wf

class Facts : Prop extends Facts₀ where

variable [Facts]
-- ==== Proof.K.Runs.lean ====
/-
  The kernel's frame, what its three control cases share.

  The kernel walks a grid of four points. Each point stages two column strips of the adjacency matrix (10000 x 256
  each, strips 2t and 2t + 1 of the eight), the embedding matrix (10000 x 128, one constant block) and the output
  (10000 x 128, one constant block, written back after the last point only). Two scratch buffers of the kernel's
  own live across the points: the embeddings recast (stored at the first point, read at every point) and the
  running sum of the strips' contributions (stored at the first point, added to at the middle points, read at
  the last).

  The body branches on the grid coordinate alone, three ways: the first point, the middle points, the last point.
  Here are the conditions in closed form over the grid, where the output window is idle, the staging and scratch
  memrefs as the pipeline passes them, and that an input window's buffer holds its block at every point.
-/
import proofs.«134454_g6751688590051_cont_9to1c4b_755_28_alg».proof.Proof.Gen.Kernel.Launch
import proofs.«134454_g6751688590051_cont_9to1c4b_755_28_alg».proof.Proof.Gen.Kernel.Skeleton
import proofs.«134454_g6751688590051_cont_9to1c4b_755_28_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- Core `c`'s buffer contents when the region is entered: the launch contents (no host operation precedes it). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions, from the grid coordinate -/

/-- "This is the first point": the condition of the two conditionals that store the recast embeddings and
    the first strips' contribution. -/
abbrev condZ (i : grid0.Coords) : Prop := (Scalar.cmpi .ne (Scalar.extui (Scalar.cmpi .eq (BitVec.ofNat 32 (i 0).val) 0#32)) 0#32) = 1#1
theorem hcondZ : ∀ t : Fin cfg0.N, condZ (grid0.coords t) ↔ t.val = 0 :=
  (by decide +kernel : ∀ t : Fin grid0.N, condZ (grid0.coords t) ↔ t.val = 0)

/-- "This is neither the first nor the last point": the condition of the conditional that adds to the running sum. -/
abbrev condM (i : grid0.Coords) : Prop := (Scalar.cmpi .ne (Scalar.extui (Scalar.andi (Scalar.cmpi .ne (BitVec.ofNat 32 (i 0).val) 0#32) (Scalar.cmpi .ne (BitVec.ofNat 32 (i 0).val) 3#32))) 0#32) = 1#1
theorem hcondM : ∀ t : Fin cfg0.N, condM (grid0.coords t) ↔ (t.val = 1 ∨ t.val = 2) :=
  (by decide +kernel : ∀ t : Fin grid0.N, condM (grid0.coords t) ↔ (t.val = 1 ∨ t.val = 2))

/-- "This is the last point": the condition of the conditional that stores the output. -/
abbrev condL (i : grid0.Coords) : Prop := k0_cond4 i = 1#1
theorem hcondL : ∀ t : Fin cfg0.N, condL (grid0.coords t) ↔ t.val = 3 :=
  (by decide +kernel : ∀ t : Fin grid0.N, condL (grid0.coords t) ↔ t.val = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off the last point the output window is idle (nothing is stored into it) and is not written back. -/
theorem idleAt0_3 : ∀ t : Fin cfg0.N, ¬condL (grid0.coords t) → cfg0.idle 3 (grid0.coords t) = true := by decide +kernel
theorem noFlush0_3 : ∀ t : Fin cfg0.N, ¬condL (grid0.coords t) → (cfg0.win 3).flush t = false := by decide +kernel
/-- At the last point it is live. -/
theorem liveAt0_3 : ∀ t : Fin cfg0.N, condL (grid0.coords t) → cfg0.idle 3 (grid0.coords t) = false := by decide +kernel

/-! ## The staging and scratch memrefs -/

/-- One staging buffer of the output window, through which its contents are stated. -/
abbrev VO0_3 : View sig .tc .vmem S10000x128 .f32 := (Memref.whole cc0_stg3_0 : Memref sig .tc .vmem S10000x128 .f32).view
/-- Each window's current staging memref at point `t`, as the pipeline passes it, and its wholeness. -/
abbrev ms0_0 (t : Fin cfg0.N) : Memref sig .tc .vmem S10000x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S10000x128 .f32 := win0_3.stage (cfg0.slots t 3)
abbrev hs0_3 (t : Fin cfg0.N) : (ms0_3 t).IsWhole := hstage0_3 ((cfg0.slots t 3).cast nbuf0_3)
/-- The scratch operands: whole scoped buffers of the kernel's own. -/
abbrev scM0_0 : Memref sig .tc .vmem S10000x128 .bf16 := Memref.whole cc0_scratch0
abbrev scM0_1 : Memref sig .tc .vmem S10000x128 .bf16 := Memref.whole cc0_scratch1
abbrev VS0_0 : View sig .tc .vmem S10000x128 .bf16 := scM0_0.view
abbrev VS0_1 : View sig .tc .vmem S10000x128 .bf16 := scM0_1.view

/-- What the launch hands the region besides the windows: the two scratch buffers, each at some contents. -/
def PhiZ (c : Dev nD) : sProp 𝕄 :=
  iprop((∃ d, owns (c : Thread nD τ) scM0_0 fullShare d) ∗ (∃ d, owns (c : Thread nD τ) scM0_1 fullShare d))

theorem PhiZ_eq (c : Dev nD) :
    (Pipeline.scopedRest (Ix := Unit) (Name := ℕ) (U := UR sig nD τ) (Lvl := ℕ) (Val := Elt F) spec0 c : sProp 𝕄) = PhiZ c := by
  unfold PhiZ; rw [scopedRest0_eq]; simp only [scM0_0, scM0_1, owns_whole]; try rfl

end Cert.Kernel.Fr

end
-- ==== Proof.K.RunA.lean ====
/-
  The body at the first point.

  There the body recasts the embedding block and stores it whole into the first scratch buffer, reads it back,
  multiplies the two strips through (strip-transpose times embeddings, then strip times that), and stores the sum of
  the two products whole into the second scratch buffer. The output's buffer is left as it was handed in.
  The triple is stated on any whole memrefs; the pieces the two scratch buffers end with are found by running the body.
-/
import proofs.«134454_g6751688590051_cont_9to1c4b_755_28_alg».proof.Proof.K.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The first point's run: from the three input buffers at their contents, the output's buffer at contents handed back
    untouched, and the two scratch buffers at anything, the body runs to the continuation holding the inputs and the
    output's buffer as they were and each scratch buffer with its pieces written. -/
noncomputable def kernelRun0_A (c : Dev nD) (i : grid0.Coords) (arg1 : Memref sig .tc .vmem S10000x256 .f32) (harg1 : arg1.IsWhole) (arg2 : Memref sig .tc .vmem S10000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole) (hz : condZ i) (hm : ¬condM i) (hl : ¬condL i)
    (x0 : Vec F S10000x256 .f32) (x1 : Vec F S10000x256 .f32) (x2 : Vec F S10000x128 .f32) :
    Σ' (L3 : List (View.Piece (Elt F) S10000x128 .f32)), Σ' (LS0 : List (View.Piece (Elt F) S10000x128 .bf16)), { LS1 : List (View.Piece (Elt F) S10000x128 .bf16) //
      ∀ (xi3 : Vec F S10000x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__hgnn_kernel i arg1 harg1 arg2 harg2 arg3 harg3 arg4 harg4 arg5 harg5 arg6 harg6) K } := by
  refine ⟨[], ?_, ?_, fun xi3 E K => ?run⟩
  case run =>
    simp only [cc0__hgnn_kernel_eq_skeleton]; unfold cc0__hgnn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hz | exact hm | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]
    · iexists _; iexact HS0
    iexists _; iexact HS1

end Cert.Kernel.Fr

end
-- ==== Proof.K.RunB.lean ====
/-
  The body at a middle point.

  There the body reads the recast embeddings from the first scratch buffer, multiplies the two strips through, reads the
  running sum from the second scratch buffer and stores the sum of that and the two products back into it, whole.
  The first scratch buffer and the output's buffer are left as they were handed in.
-/
import proofs.«134454_g6751688590051_cont_9to1c4b_755_28_alg».proof.Proof.K.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A middle point's run: from the three input buffers at their contents, the output's buffer at contents handed back
    untouched, and the two scratch buffers at what the point before left, the body runs to the continuation holding the
    inputs, the output's buffer and the first scratch buffer as they were and the second scratch buffer with its pieces written. -/
noncomputable def kernelRun0_B (c : Dev nD) (i : grid0.Coords) (arg1 : Memref sig .tc .vmem S10000x256 .f32) (harg1 : arg1.IsWhole) (arg2 : Memref sig .tc .vmem S10000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole) (hz : ¬condZ i) (hm : condM i) (hl : ¬condL i)
    (x0 : Vec F S10000x256 .f32) (x1 : Vec F S10000x256 .f32) (x2 : Vec F S10000x128 .f32) (xs0 : Vec F S10000x128 .bf16) (xs1 : Vec F S10000x128 .bf16) :
    Σ' (L3 : List (View.Piece (Elt F) S10000x128 .f32)), { LS1 : List (View.Piece (Elt F) S10000x128 .bf16) //
      ∀ (xi3 : Vec F S10000x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3
            ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2 ∗ owns (c : Thread nD τ) arg4 fullShare xi3
                ∗ owns (c : Thread nD τ) arg5 fullShare xs0
                ∗ (∃ f, arg6.view.loc (c : Thread nD τ) ↦[arg6.view.set]{fullShare} arg6.view.writes (Elt F) f LS1)) -∗ K ⟨⟩))
          ⊢ wp frame (wpE (defs₀ (F := F)) Variants.none c none) E (cc0__hgnn_kernel i arg1 harg1 arg2 harg2 arg3 harg3 arg4 harg4 arg5 harg5 arg6 harg6) K } := by
  refine ⟨[], ?_, fun xi3 E K => ?run⟩
  case run =>
    simp only [cc0__hgnn_kernel_eq_skeleton]; unfold cc0__hgnn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfs0; obtain rfl := harg6.eq_unread hfs1
    sl_exec (disch := first | exact hz | exact hm | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]
    · iexists _; isplitr; · ipureintro; exact harg5.read_unread _
      iexact HS0
    iexists _; iexact HS1

end Cert.Kernel.Fr

end
-- ==== Proof.K.RunC.lean ====
/-
  The body at the last point.

  There the body reads the recast embeddings from the first scratch buffer, multiplies the two strips through, reads the
  running sum from the second scratch buffer and stores the sum of that and the two products into the output's
  buffer, whole. Both scratch buffers are left as they were handed in.
-/
import proofs.«134454_g6751688590051_cont_9to1c4b_755_28_alg».proof.Proof.K.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The last point's run: from the three input buffers at their contents, the output's buffer at anything, and the two
    scratch buffers at what the point before left, the body runs to the continuation holding the inputs and the scratch
    buffers as they were and the output's buffer with its pieces written. -/
noncomputable def kernelRun0_C (c : Dev nD) (i : grid0.Coords) (arg1 : Memref sig .tc .vmem S10000x256 .f32) (harg1 : arg1.IsWhole) (arg2 : Memref sig .tc .vmem S10000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole) (hz : ¬condZ i) (hm : ¬condM i) (hl : condL i)
    (x0 : Vec F S10000x256 .f32) (x1 : Vec F S10000x256 .f32) (x2 : Vec F S10000x128 .f32) (xs0 : Vec F S10000x128 .bf16) (xs1 : Vec F S10000x128 .bf16) :
    { L3 : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ owns (c : Thread nD τ) arg5 fullShare xs0 ∗ owns (c : Thread nD τ) arg6 fullShare xs1) -∗ K ⟨⟩))
          ⊢ wp frame (wpE (defs₀ (F := F)) Variants.none c none) E (cc0__hgnn_kernel i arg1 harg1 arg2 harg2 arg3 harg3 arg4 harg4 arg5 harg5 arg6 harg6) K } := by
  refine ⟨?_, fun E K => ?run⟩
  case run =>
    simp only [cc0__hgnn_kernel_eq_skeleton]; unfold cc0__hgnn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg5.eq_unread hfs0; obtain rfl := harg6.eq_unread hfs1
    sl_exec (disch := first | exact hz | exact hm | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    isplitl [HS0]
    · iexists _; isplitr; · ipureintro; exact harg5.read_unread _
      iexact HS0
    iexists _; isplitr; · ipureintro; exact harg6.read_unread _
    iexact HS1

end Cert.Kernel.Fr

end
-- ==== Proof.LibSharedArrays.lean ====
/-
  Windows that share an array: one array handed to a pipeline through two input windows.

  A pipeline's entry and exit lemmas for a core's unscoped buffers are stated for pairwise distinct arrays.
  Here two windows `a ≠ b` lie on one array and every other window's array is distinct from all others.
  The array's full share is dealt between the two windows, the left half to `a` and the right half to `b`;
  every other window holds its array at the full share.
-/
import Idealize.ShloMosaic.Lib.Pipeline.RegionsLoop

noncomputable section

namespace Idealize.ShloMosaic

open Idealize.SL
open Idealize.SL.BI (sProp bigSep bigSep_sep' bigSep_mono bigSep_congr bigSep_subset bigSep_sdiff_split bigSep_insert bigSep_erase
  bigSep_univ_split bigSep_image_of_injOn)
open scoped Idealize.SL.BI
open Idealize.SL.BI.BIBase Idealize.SL.BI.Laws Idealize.SL.Sem Idealize.SL.ProofMode
open Idealize.SL.RA
open TcCoe

set_option Elab.async false

namespace Pipeline.SharedArrays

variable {nD : Nat} {τ : Topo} {sig : RefSig} {Val : EltTy → Type}
variable {Ix : Type} [DecidableEq Ix] {Name : Type} [DecidableEq Name] {U : Type} [URA U] {Lvl : Type}
variable {Λ₀ : SL.Sem.Labels}

local notation "𝕄" => MT nD τ sig Ix Val Name U Lvl

/-- Rotating the first two of three separated assertions. -/
theorem sep_rotate (P Q R : sProp 𝕄) : iprop((P ∗ Q) ∗ R) = iprop(Q ∗ P ∗ R) := by
  have h1 : iprop((P ∗ Q) ∗ R) ⊢ iprop(Q ∗ P ∗ R) := by
    iintro ⟨⟨HP, HQ⟩, HR⟩
    isplitl [HQ]; · iexact HQ
    isplitl [HP]; · iexact HP
    iexact HR
  have h2 : iprop(Q ∗ P ∗ R) ⊢ iprop((P ∗ Q) ∗ R) := by
    iintro ⟨HQ, HP, HR⟩
    isplitr [HR]
    · isplitl [HP]; · iexact HP
      iexact HQ
    · iexact HR
  exact h1.antisymm h2

/-- A whole-buffer points-to read along an equation of references: the buffer behind `r` at `V r` is the buffer
    behind `r'` at `V r'` when `r = r'`. -/
theorem pointsTo_ref_congr (c : Dev nD) (V : (r : Ref sig .tc) → Buf Val ((c.tc : Thread nD τ).loc r))
    (q : PosShare TreeShare) {r r' : Ref sig .tc} (h : r = r') :
    ((((c.tc : Thread nD τ).loc r) ↦{q} V r : sProp 𝕄)) = (((c.tc : Thread nD τ).loc r') ↦{q} V r') := by
  subst h; rfl

/-- A core's unscoped buffers at contents `V` are the distinct buffers behind the windows' arrays at `V` and the
    rest, whether or not the arrays are distinct. -/
theorem unscopedBufs_eq {cfg : Cfg sig Λ₀} (c : Dev nD) (hun : ∀ w, (arrRef cfg.spec w).isScoped = false)
    (V : (r : Ref sig .tc) → Buf Val ((c.tc : Thread nD τ).loc r)) :
    (unscopedBufs c V : sProp 𝕄) = iprop((arrBufs cfg.spec c V : sProp 𝕄) ∗ unscopedRest cfg.spec c V) := by
  classical
  have hA : Finset.univ.image (arrRef cfg.spec) ⊆ Finset.univ.filter fun r : Ref sig .tc => ¬ r.isScoped := fun r hr => by
    obtain ⟨w, -, rfl⟩ := Finset.mem_image.mp hr
    exact Finset.mem_filter.mpr ⟨Finset.mem_univ _, by simp [hun w]⟩
  unfold unscopedBufs unscopedRest arrBufs
  rw [bigSep_sdiff_split hA]
  rfl

/-- THE SPLIT. Two windows `a ≠ b` on one array (`heq`), every other coincidence of arrays excluded (`hinj`), every
    array a whole buffer (`harr`); window `a` holds the left half of the full share, window `b` the right half, every
    other window the full share. Then the distinct buffers behind the arrays, each whole at the full share at
    contents `V`, ARE the proof data's `arrays` at the contents `F` read off `V` (`hF`). -/
theorem arrBufs_eq_arrays_shared {cfg : Cfg sig Λ₀} {c : Dev nD} (dat : Dat τ Val Ix Name U Lvl cfg c)
    (harr : ∀ w, (cfg.spec w).arr.IsWhole)
    (a b : Fin cfg.W) (hab : a ≠ b) (heq : arrRef cfg.spec b = arrRef cfg.spec a)
    (hinj : ∀ w w', w ≠ b → w' ≠ b → arrRef cfg.spec w = arrRef cfg.spec w' → w = w')
    (hsa : dat.share a = fullShare.left) (hsb : dat.share b = fullShare.right)
    (hs : ∀ w, w ≠ a → w ≠ b → dat.share w = fullShare)
    (V : (r : Ref sig .tc) → Buf Val ((c.tc : Thread nD τ).loc r))
    (F : (w : Fin cfg.W) → Buf Val ((cfg.spec w).arr.view.loc (c.tc : Thread nD τ)))
    (hF : ∀ w, F w = V (arrRef cfg.spec w)) :
    (arrBufs cfg.spec c V : sProp 𝕄) = dat.arrays F := by
  classical
  -- the arrays' buffers are those of the windows other than `b`, on which the map to buffers is injective
  have himg : Finset.univ.image (arrRef cfg.spec) = (Finset.univ.erase b).image (arrRef cfg.spec) := by
    ext r
    simp only [Finset.mem_image, Finset.mem_univ, true_and, Finset.mem_erase, and_true]
    constructor
    · rintro ⟨w, rfl⟩
      by_cases hw : w = b
      · exact ⟨a, hab, by rw [hw, heq]⟩
      · exact ⟨w, hw, rfl⟩
    · rintro ⟨w, -, rfl⟩; exact ⟨w, rfl⟩
  have hinjOn : Set.InjOn (arrRef cfg.spec) (Finset.univ.erase b : Finset (Fin cfg.W)) := fun w hw w' hw' e =>
    hinj w w' (Finset.ne_of_mem_erase (Finset.mem_coe.mp hw)) (Finset.ne_of_mem_erase (Finset.mem_coe.mp hw')) e
  have ha : a ∈ (Finset.univ.erase b : Finset (Fin cfg.W)) := Finset.mem_erase.mpr ⟨hab, Finset.mem_univ _⟩
  -- each window's term of `arrays`, spelled as a whole-buffer points-to at contents read off `V`
  have hterm : ∀ w, (((cfg.win w).arr.view.loc (c.tc : Thread nD τ) ↦[(cfg.win w).arr.view.set]{dat.share w} F w : sProp 𝕄))
      = (((c.tc : Thread nD τ).loc (arrRef cfg.spec w)) ↦{dat.share w} V (arrRef cfg.spec w)) := fun w => by
    rw [(harr w).set_eq_univ, hF]
  -- the full share of `a`'s buffer, dealt into its halves
  have hshare : ((((c.tc : Thread nD τ).loc (arrRef cfg.spec a)) ↦{fullShare} V (arrRef cfg.spec a) : sProp 𝕄))
      = iprop((((c.tc : Thread nD τ).loc (arrRef cfg.spec a)) ↦{fullShare.left} V (arrRef cfg.spec a))
          ∗ (((c.tc : Thread nD τ).loc (arrRef cfg.spec a)) ↦{fullShare.right} V (arrRef cfg.spec a))) :=
    have h := pointsTo_share (ℓ := (c.tc : Thread nD τ).loc (arrRef cfg.spec a)) (I := Finset.univ) (f := V (arrRef cfg.spec a))
      (Ix := Ix) (Name := Name) (U := U) (Lvl := Lvl) (PosShare.mem_left_op_right fullShare)
    BI.equiv_iff.mp ⟨h.1, h.2⟩
  -- the windows on neither side of the shared array
  have hrest : (bigSep ((Finset.univ.erase b).erase a) fun w : Fin cfg.W =>
        ((cfg.win w).arr.view.loc (c.tc : Thread nD τ) ↦[(cfg.win w).arr.view.set]{dat.share w} F w : sProp 𝕄))
      = bigSep ((Finset.univ.erase b).erase a) fun w : Fin cfg.W =>
        ((((c.tc : Thread nD τ).loc (arrRef cfg.spec w)) ↦{fullShare} V (arrRef cfg.spec w) : sProp 𝕄)) :=
    bigSep_congr fun w hw => by
      rw [hterm w, hs w (Finset.ne_of_mem_erase hw) (Finset.ne_of_mem_erase (Finset.mem_of_mem_erase hw))]
  have hL : (arrBufs cfg.spec c V : sProp 𝕄)
      = iprop(((((c.tc : Thread nD τ).loc (arrRef cfg.spec a)) ↦{fullShare.left} V (arrRef cfg.spec a))
          ∗ (((c.tc : Thread nD τ).loc (arrRef cfg.spec a)) ↦{fullShare.right} V (arrRef cfg.spec a)))
        ∗ bigSep ((Finset.univ.erase b).erase a) fun w : Fin cfg.W =>
          ((((c.tc : Thread nD τ).loc (arrRef cfg.spec w)) ↦{fullShare} V (arrRef cfg.spec w) : sProp 𝕄))) := by
    unfold arrBufs
    rw [himg, bigSep_image_of_injOn hinjOn, bigSep_erase ha, hshare]
    rfl
  have hR : dat.arrays F
      = iprop((((c.tc : Thread nD τ).loc (arrRef cfg.spec a)) ↦{fullShare.right} V (arrRef cfg.spec a))
        ∗ (((c.tc : Thread nD τ).loc (arrRef cfg.spec a)) ↦{fullShare.left} V (arrRef cfg.spec a))
        ∗ bigSep ((Finset.univ.erase b).erase a) fun w : Fin cfg.W =>
          ((((c.tc : Thread nD τ).loc (arrRef cfg.spec w)) ↦{fullShare} V (arrRef cfg.spec w) : sProp 𝕄))) := by
    unfold Dat.arrays
    rw [bigSep_univ_split b, bigSep_erase ha, hrest, hterm a, hterm b, hsa, hsb, pointsTo_ref_congr c V fullShare.right heq]
    rfl
  rw [hL, hR]; exact sep_rotate _ _ _

/-- ENTRY, the arrays' part, for two windows `a ≠ b` on one array: a core's unscoped buffers at contents `V` are the
    proof data's `arrays` at the contents `F` read off `V` (`hF`) — window `a` at the left half of the full share,
    window `b` at the right half, every other window at the full share — and the unscoped rest. -/
theorem arrays_of_unscopedBufs_shared {cfg : Cfg sig Λ₀} {c : Dev nD} (dat : Dat τ Val Ix Name U Lvl cfg c)
    (hun : ∀ w, (arrRef cfg.spec w).isScoped = false) (harr : ∀ w, (cfg.spec w).arr.IsWhole)
    (a b : Fin cfg.W) (hab : a ≠ b) (heq : arrRef cfg.spec b = arrRef cfg.spec a)
    (hinj : ∀ w w', w ≠ b → w' ≠ b → arrRef cfg.spec w = arrRef cfg.spec w' → w = w')
    (hsa : dat.share a = fullShare.left) (hsb : dat.share b = fullShare.right)
    (hs : ∀ w, w ≠ a → w ≠ b → dat.share w = fullShare)
    (V : (r : Ref sig .tc) → Buf Val ((c.tc : Thread nD τ).loc r))
    (F : (w : Fin cfg.W) → Buf Val ((cfg.spec w).arr.view.loc (c.tc : Thread nD τ)))
    (hF : ∀ w, F w = V (arrRef cfg.spec w)) :
    (unscopedBufs c V : sProp 𝕄) ⊢ iprop(dat.arrays F ∗ unscopedRest cfg.spec c V) := by
  rw [unscopedBufs_eq (cfg := cfg) c hun V, arrBufs_eq_arrays_shared dat harr a b hab heq hinj hsa hsb hs V F hF]

/-- EXIT, the arrays' part, for two windows `a ≠ b` on one array: the proof data's `arrays` at contents `F` — the two
    halves of the shared array's full share held by `a` and `b` — and the unscoped rest at `V` are the core's unscoped
    buffers at any valuation `V'` that has the arrays at `F` (`hF`) and agrees with `V` off them (`hrest`). -/
theorem unscopedBufs_of_arrays_shared {cfg : Cfg sig Λ₀} {c : Dev nD} (dat : Dat τ Val Ix Name U Lvl cfg c)
    (hun : ∀ w, (arrRef cfg.spec w).isScoped = false) (harr : ∀ w, (cfg.spec w).arr.IsWhole)
    (a b : Fin cfg.W) (hab : a ≠ b) (heq : arrRef cfg.spec b = arrRef cfg.spec a)
    (hinj : ∀ w w', w ≠ b → w' ≠ b → arrRef cfg.spec w = arrRef cfg.spec w' → w = w')
    (hsa : dat.share a = fullShare.left) (hsb : dat.share b = fullShare.right)
    (hs : ∀ w, w ≠ a → w ≠ b → dat.share w = fullShare)
    (V V' : (r : Ref sig .tc) → Buf Val ((c.tc : Thread nD τ).loc r))
    (F : (w : Fin cfg.W) → Buf Val ((cfg.spec w).arr.view.loc (c.tc : Thread nD τ)))
    (hF : ∀ w, F w = V' (arrRef cfg.spec w))
    (hrest : ∀ r, r ∉ Finset.univ.image (arrRef cfg.spec) → V' r = V r) :
    iprop(dat.arrays F ∗ unscopedRest cfg.spec c V) ⊢ (unscopedBufs c V' : sProp 𝕄) := by
  rw [unscopedBufs_eq (cfg := cfg) c hun V', arrBufs_eq_arrays_shared dat harr a b hab heq hinj hsa hsb hs V' F hF]
  refine sep_mono .rfl (Entails.of_eq ?_)
  unfold unscopedRest
  exact bigSep_congr fun r hr => by rw [hrest r (Finset.mem_sdiff.mp hr).2]

/-- `arrays_of_unscopedBufs_shared` with the arrays' unscopedness read off the launch's facts about the windows. -/
theorem arrays_of_unscopedBufs_shared' {cfg : Cfg sig Λ₀} {c : Dev nD} (dat : Dat τ Val Ix Name U Lvl cfg c)
    (hw : WinFacts₀ cfg.spec) (harr : ∀ w, (cfg.spec w).arr.IsWhole)
    (a b : Fin cfg.W) (hab : a ≠ b) (heq : arrRef cfg.spec b = arrRef cfg.spec a)
    (hinj : ∀ w w', w ≠ b → w' ≠ b → arrRef cfg.spec w = arrRef cfg.spec w' → w = w')
    (hsa : dat.share a = fullShare.left) (hsb : dat.share b = fullShare.right)
    (hs : ∀ w, w ≠ a → w ≠ b → dat.share w = fullShare)
    (V : (r : Ref sig .tc) → Buf Val ((c.tc : Thread nD τ).loc r))
    (F : (w : Fin cfg.W) → Buf Val ((cfg.spec w).arr.view.loc (c.tc : Thread nD τ)))
    (hF : ∀ w, F w = V (arrRef cfg.spec w)) :
    (unscopedBufs c V : sProp 𝕄) ⊢ iprop(dat.arrays F ∗ unscopedRest cfg.spec c V) :=
  arrays_of_unscopedBufs_shared dat hw.arr_unscoped harr a b hab heq hinj hsa hsb hs V F hF

/-- `unscopedBufs_of_arrays_shared` with the arrays' unscopedness read off the launch's facts about the windows. -/
theorem unscopedBufs_of_arrays_shared' {cfg : Cfg sig Λ₀} {c : Dev nD} (dat : Dat τ Val Ix Name U Lvl cfg c)
    (hw : WinFacts₀ cfg.spec) (harr : ∀ w, (cfg.spec w).arr.IsWhole)
    (a b : Fin cfg.W) (hab : a ≠ b) (heq : arrRef cfg.spec b = arrRef cfg.spec a)
    (hinj : ∀ w w', w ≠ b → w' ≠ b → arrRef cfg.spec w = arrRef cfg.spec w' → w = w')
    (hsa : dat.share a = fullShare.left) (hsb : dat.share b = fullShare.right)
    (hs : ∀ w, w ≠ a → w ≠ b → dat.share w = fullShare)
    (V V' : (r : Ref sig .tc) → Buf Val ((c.tc : Thread nD τ).loc r))
    (F : (w : Fin cfg.W) → Buf Val ((cfg.spec w).arr.view.loc (c.tc : Thread nD τ)))
    (hF : ∀ w, F w = V' (arrRef cfg.spec w))
    (hrest : ∀ r, r ∉ Finset.univ.image (arrRef cfg.spec) → V' r = V r) :
    iprop(dat.arrays F ∗ unscopedRest cfg.spec c V) ⊢ (unscopedBufs c V' : sProp 𝕄) :=
  unscopedBufs_of_arrays_shared dat hw.arr_unscoped harr a b hab heq hinj hsa hsb hs V V' F hF hrest

end Pipeline.SharedArrays

end Idealize.ShloMosaic
-- ==== Proof.K.Frame.lean ====
/-
  The kernel's frame: what the output's buffer and the two scratch buffers hold after each point, the pipeline's
  proof data, the body obligation at every point, and the run.

  The two strip windows read ONE array (the adjacency matrix is handed to the kernel twice): the array's full share
  is dealt between them by halves, the left half to the first strip's window and the right half to the second's;
  both are inputs, so nothing is ever written through either half. The embeddings' window and the output's hold their
  arrays at the full share.

  After the first point the first scratch buffer holds the recast embeddings and the second the first two strips'
  contribution; a middle point leaves the first as it was and adds its two strips' contribution to the second; the
  last point leaves both as they were and stores their sum into the output's buffer, which the pipeline then
  writes back, whole, once.
-/
import proofs.«134454_g6751688590051_cont_9to1c4b_755_28_alg».proof.Proof.K.RunC
import proofs.«134454_g6751688590051_cont_9to1c4b_755_28_alg».proof.Proof.LibSharedArrays
import Idealize.ShloMosaic.Lib.Pipeline.Launch

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions at a point, from its position -/

theorem cZ_of (t : Fin cfg0.N) (h : t.val = 0) : condZ (grid0.coords t) := (hcondZ t).mpr h
theorem ncM_of_zero (t : Fin cfg0.N) (h : t.val = 0) : ¬condM (grid0.coords t) := fun hc => by have := (hcondM t).mp hc; omega
theorem ncL_of_zero (t : Fin cfg0.N) (h : t.val = 0) : ¬condL (grid0.coords t) := fun hc => by have := (hcondL t).mp hc; omega
theorem ncZ_of_pos (t : Fin cfg0.N) (h : t.val ≠ 0) : ¬condZ (grid0.coords t) := fun hc => h ((hcondZ t).mp hc)
theorem cM_of_mid (t : Fin cfg0.N) (h0 : t.val ≠ 0) (h3 : t.val ≠ 3) : condM (grid0.coords t) :=
  (hcondM t).mpr (by have := lt_of_lt_of_eq t.isLt (show cfg0.N = 4 from N_0); omega)
theorem ncL_of_ne (t : Fin cfg0.N) (h3 : t.val ≠ 3) : ¬condL (grid0.coords t) := fun hc => h3 ((hcondL t).mp hc)
theorem ncM_of_last (t : Fin cfg0.N) (h3 : t.val = 3) : ¬condM (grid0.coords t) := fun hc => by have := (hcondM t).mp hc; omega
theorem cL_of_last (t : Fin cfg0.N) (h3 : t.val = 3) : condL (grid0.coords t) := (hcondL t).mpr h3

/-! ## What each case leaves -/

/-- The first point stores nothing into the output's buffer: a placeholder nothing consults. -/
def out0_A_3 (c : Dev nD) (i : grid0.Coords) (arg1 : Memref sig .tc .vmem S10000x256 .f32) (harg1 : arg1.IsWhole) (arg2 : Memref sig .tc .vmem S10000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole) (hz : condZ i) (hm : ¬condM i) (hl : ¬condL i)
    (x0 : Vec F S10000x256 .f32) (x1 : Vec F S10000x256 .f32) (x2 : Vec F S10000x128 .f32) : Vec F S10000x128 .f32 :=
  VO0_3.read (Elt F) (VO0_3.writes (Elt F) VO0_3.junk (kernelRun0_A c i arg1 harg1 arg2 harg2 arg3 harg3 arg4 harg4 arg5 harg5 arg6 harg6 hz hm hl x0 x1 x2).1)

/-- The first point's one store into the first scratch buffer covers it. -/
theorem scover0_A_0 (c : Dev nD) (i : grid0.Coords) (arg1 : Memref sig .tc .vmem S10000x256 .f32) (harg1 : arg1.IsWhole) (arg2 : Memref sig .tc .vmem S10000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole) (hz : condZ i) (hm : ¬condM i) (hl : ¬condL i)
    (x0 : Vec F S10000x256 .f32) (x1 : Vec F S10000x256 .f32) (x2 : Vec F S10000x128 .f32) (y : S10000x128.Idx) :
    ∃ pc ∈ (kernelRun0_A c i arg1 harg1 arg2 harg2 arg3 harg3 arg4 harg4 arg5 harg5 arg6 harg6 hz hm hl x0 x1 x2).2.1, y ∈ pc.1.set :=
  View.cover_of_tiledL (kernelRun0_A c i arg1 harg1 arg2 harg2 arg3 harg3 arg4 harg4 arg5 harg5 arg6 harg6 hz hm hl x0 x1 x2).2.1 S10000x128.size (by sl_kernel_rfl) y
/-- What the first point leaves in the first scratch buffer. -/
def sout0_A_0 (c : Dev nD) (i : grid0.Coords) (arg1 : Memref sig .tc .vmem S10000x256 .f32) (harg1 : arg1.IsWhole) (arg2 : Memref sig .tc .vmem S10000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole) (hz : condZ i) (hm : ¬condM i) (hl : ¬condL i)
    (x0 : Vec F S10000x256 .f32) (x1 : Vec F S10000x256 .f32) (x2 : Vec F S10000x128 .f32) : Vec F S10000x128 .bf16 :=
  VS0_0.read (Elt F) (VS0_0.writes (Elt F) VS0_0.junk (kernelRun0_A c i arg1 harg1 arg2 harg2 arg3 harg3 arg4 harg4 arg5 harg5 arg6 harg6 hz hm hl x0 x1 x2).2.1)

/-- The first point's one store into the second scratch buffer covers it. -/
theorem scover0_A_1 (c : Dev nD) (i : grid0.Coords) (arg1 : Memref sig .tc .vmem S10000x256 .f32) (harg1 : arg1.IsWhole) (arg2 : Memref sig .tc .vmem S10000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole) (hz : condZ i) (hm : ¬condM i) (hl : ¬condL i)
    (x0 : Vec F S10000x256 .f32) (x1 : Vec F S10000x256 .f32) (x2 : Vec F S10000x128 .f32) (y : S10000x128.Idx) :
    ∃ pc ∈ (kernelRun0_A c i arg1 harg1 arg2 harg2 arg3 harg3 arg4 harg4 arg5 harg5 arg6 harg6 hz hm hl x0 x1 x2).2.2.1, y ∈ pc.1.set :=
  View.cover_of_tiledL (kernelRun0_A c i arg1 harg1 arg2 harg2 arg3 harg3 arg4 harg4 arg5 harg5 arg6 harg6 hz hm hl x0 x1 x2).2.2.1 S10000x128.size (by sl_kernel_rfl) y
/-- What the first point leaves in the second scratch buffer. -/
def sout0_A_1 (c : Dev nD) (i : grid0.Coords) (arg1 : Memref sig .tc .vmem S10000x256 .f32) (harg1 : arg1.IsWhole) (arg2 : Memref sig .tc .vmem S10000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole) (hz : condZ i) (hm : ¬condM i) (hl : ¬condL i)
    (x0 : Vec F S10000x256 .f32) (x1 : Vec F S10000x256 .f32) (x2 : Vec F S10000x128 .f32) : Vec F S10000x128 .bf16 :=
  VS0_1.read (Elt F) (VS0_1.writes (Elt F) VS0_1.junk (kernelRun0_A c i arg1 harg1 arg2 harg2 arg3 harg3 arg4 harg4 arg5 harg5 arg6 harg6 hz hm hl x0 x1 x2).2.2.1)

/-- A middle point stores nothing into the output's buffer: a placeholder nothing consults. -/
def out0_B_3 (c : Dev nD) (i : grid0.Coords) (arg1 : Memref sig .tc .vmem S10000x256 .f32) (harg1 : arg1.IsWhole) (arg2 : Memref sig .tc .vmem S10000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole) (hz : ¬condZ i) (hm : condM i) (hl : ¬condL i)
    (x0 : Vec F S10000x256 .f32) (x1 : Vec F S10000x256 .f32) (x2 : Vec F S10000x128 .f32) (xs0 : Vec F S10000x128 .bf16) (xs1 : Vec F S10000x128 .bf16) : Vec F S10000x128 .f32 :=
  VO0_3.read (Elt F) (VO0_3.writes (Elt F) VO0_3.junk (kernelRun0_B c i arg1 harg1 arg2 harg2 arg3 harg3 arg4 harg4 arg5 harg5 arg6 harg6 hz hm hl x0 x1 x2 xs0 xs1).1)

/-- A middle point's one store into the second scratch buffer covers it. -/
theorem scover0_B_1 (c : Dev nD) (i : grid0.Coords) (arg1 : Memref sig .tc .vmem S10000x256 .f32) (harg1 : arg1.IsWhole) (arg2 : Memref sig .tc .vmem S10000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole) (hz : ¬condZ i) (hm : condM i) (hl : ¬condL i)
    (x0 : Vec F S10000x256 .f32) (x1 : Vec F S10000x256 .f32) (x2 : Vec F S10000x128 .f32) (xs0 : Vec F S10000x128 .bf16) (xs1 : Vec F S10000x128 .bf16) (y : S10000x128.Idx) :
    ∃ pc ∈ (kernelRun0_B c i arg1 harg1 arg2 harg2 arg3 harg3 arg4 harg4 arg5 harg5 arg6 harg6 hz hm hl x0 x1 x2 xs0 xs1).2.1, y ∈ pc.1.set :=
  View.cover_of_tiledL (kernelRun0_B c i arg1 harg1 arg2 harg2 arg3 harg3 arg4 harg4 arg5 harg5 arg6 harg6 hz hm hl x0 x1 x2 xs0 xs1).2.1 S10000x128.size (by sl_kernel_rfl) y
/-- What a middle point leaves in the second scratch buffer. -/
def sout0_B_1 (c : Dev nD) (i : grid0.Coords) (arg1 : Memref sig .tc .vmem S10000x256 .f32) (harg1 : arg1.IsWhole) (arg2 : Memref sig .tc .vmem S10000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole) (hz : ¬condZ i) (hm : condM i) (hl : ¬condL i)
    (x0 : Vec F S10000x256 .f32) (x1 : Vec F S10000x256 .f32) (x2 : Vec F S10000x128 .f32) (xs0 : Vec F S10000x128 .bf16) (xs1 : Vec F S10000x128 .bf16) : Vec F S10000x128 .bf16 :=
  VS0_1.read (Elt F) (VS0_1.writes (Elt F) VS0_1.junk (kernelRun0_B c i arg1 harg1 arg2 harg2 arg3 harg3 arg4 harg4 arg5 harg5 arg6 harg6 hz hm hl x0 x1 x2 xs0 xs1).2.1)

/-- The last point's one store into the output's buffer covers it. -/
theorem cover0_C_3 (c : Dev nD) (i : grid0.Coords) (arg1 : Memref sig .tc .vmem S10000x256 .f32) (harg1 : arg1.IsWhole) (arg2 : Memref sig .tc .vmem S10000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole) (hz : ¬condZ i) (hm : ¬condM i) (hl : condL i)
    (x0 : Vec F S10000x256 .f32) (x1 : Vec F S10000x256 .f32) (x2 : Vec F S10000x128 .f32) (xs0 : Vec F S10000x128 .bf16) (xs1 : Vec F S10000x128 .bf16) (y : S10000x128.Idx) :
    ∃ pc ∈ (kernelRun0_C c i arg1 harg1 arg2 harg2 arg3 harg3 arg4 harg4 arg5 harg5 arg6 harg6 hz hm hl x0 x1 x2 xs0 xs1).1, y ∈ pc.1.set :=
  View.cover_of_tiledL (kernelRun0_C c i arg1 harg1 arg2 harg2 arg3 harg3 arg4 harg4 arg5 harg5 arg6 harg6 hz hm hl x0 x1 x2 xs0 xs1).1 S10000x128.size (by sl_kernel_rfl) y
/-- What the last point leaves in the output's buffer. -/
def out0_C_3 (c : Dev nD) (i : grid0.Coords) (arg1 : Memref sig .tc .vmem S10000x256 .f32) (harg1 : arg1.IsWhole) (arg2 : Memref sig .tc .vmem S10000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole) (hz : ¬condZ i) (hm : ¬condM i) (hl : condL i)
    (x0 : Vec F S10000x256 .f32) (x1 : Vec F S10000x256 .f32) (x2 : Vec F S10000x128 .f32) (xs0 : Vec F S10000x128 .bf16) (xs1 : Vec F S10000x128 .bf16) : Vec F S10000x128 .f32 :=
  VO0_3.read (Elt F) (VO0_3.writes (Elt F) VO0_3.junk (kernelRun0_C c i arg1 harg1 arg2 harg2 arg3 harg3 arg4 harg4 arg5 harg5 arg6 harg6 hz hm hl x0 x1 x2 xs0 xs1).1)

/-! ## What the buffers hold after each point -/

/-- After the body at position `n`: the output's buffer, the first scratch buffer, the second scratch buffer. -/
def outsAt0 (c : Dev nD) : (n : ℕ) → n < cfg0.N → Vec F S10000x128 .f32 × Vec F S10000x128 .bf16 × Vec F S10000x128 .bf16
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) (cZ_of ⟨0, hn⟩ rfl) (ncM_of_zero ⟨0, hn⟩ rfl) (ncL_of_zero ⟨0, hn⟩ rfl) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) (cZ_of ⟨0, hn⟩ rfl) (ncM_of_zero ⟨0, hn⟩ rfl) (ncL_of_zero ⟨0, hn⟩ rfl) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) (cZ_of ⟨0, hn⟩ rfl) (ncM_of_zero ⟨0, hn⟩ rfl) (ncL_of_zero ⟨0, hn⟩ rfl) (iblk m c 0 ⟨0, hn⟩) (iblk m c 1 ⟨0, hn⟩) (iblk m c 2 ⟨0, hn⟩))
  | n + 1, hn =>
    if h3 : n + 1 = 3 then
      (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (ncZ_of_pos ⟨n + 1, hn⟩ (Nat.succ_ne_zero n)) (ncM_of_last ⟨n + 1, hn⟩ h3) (cL_of_last ⟨n + 1, hn⟩ h3) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, (outsAt0 c n (Nat.lt_of_succ_lt hn)).2.1, (outsAt0 c n (Nat.lt_of_succ_lt hn)).2.2)
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (ncZ_of_pos ⟨n + 1, hn⟩ (Nat.succ_ne_zero n)) (cM_of_mid ⟨n + 1, hn⟩ (Nat.succ_ne_zero n) h3) (ncL_of_ne ⟨n + 1, hn⟩ h3) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, (outsAt0 c n (Nat.lt_of_succ_lt hn)).2.1, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (ncZ_of_pos ⟨n + 1, hn⟩ (Nat.succ_ne_zero n)) (cM_of_mid ⟨n + 1, hn⟩ (Nat.succ_ne_zero n) h3) (ncL_of_ne ⟨n + 1, hn⟩ h3) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2)

theorem outsAt0_A (c : Dev nD) (t : Fin cfg0.N) (h0 : t.val = 0) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (cZ_of t h0) (ncM_of_zero t h0) (ncL_of_zero t h0) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (cZ_of t h0) (ncM_of_zero t h0) (ncL_of_zero t h0) (iblk m c 0 t) (iblk m c 1 t) (iblk m c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (cZ_of t h0) (ncM_of_zero t h0) (ncL_of_zero t h0) (iblk m c 0 t) (iblk m c 1 t) (iblk m c 2 t)) := by
  obtain ⟨n, hn⟩ := t
  cases n with
  | zero => exact rfl
  | succ n => exact absurd h0 (Nat.succ_ne_zero n)

theorem outsAt0_B (c : Dev nD) (t : Fin cfg0.N) (h0 : t.val ≠ 0) (h3 : t.val ≠ 3) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (ncZ_of_pos t h0) (cM_of_mid t h0 h3) (ncL_of_ne t h3) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, (outsAt0 m c (t.val - 1) (Nat.lt_of_le_of_lt (Nat.sub_le _ _) t.isLt)).2.1, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (ncZ_of_pos t h0) (cM_of_mid t h0 h3) (ncL_of_ne t h3) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact absurd rfl h0
  | succ n => exact (dif_neg h3).trans rfl

theorem outsAt0_C (c : Dev nD) (t : Fin cfg0.N) (h0 : t.val ≠ 0) (h3 : t.val = 3) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (ncZ_of_pos t h0) (ncM_of_last t h3) (cL_of_last t h3) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, (outsAt0 m c (t.val - 1) (Nat.lt_of_le_of_lt (Nat.sub_le _ _) t.isLt)).2.1, (outsAt0 m c (t.val - 1) (Nat.lt_of_le_of_lt (Nat.sub_le _ _) t.isLt)).2.2) := by
  obtain ⟨n, hn⟩ := t
  cases n with
  | zero => exact absurd rfl h0
  | succ n => exact (dif_pos h3).trans rfl

/-- The region invariant before position `n`: before the first point both scratch buffers at anything; afterwards each at
    what the point before left in it. -/
def PhiS (c : Dev nD) : (n : ℕ) → n ≤ cfg0.N → sProp 𝕄
  | 0, _ => PhiZ c
  | n + 1, hn => iprop(owns (c : Thread nD τ) scM0_0 fullShare ((outsAt0 m c n hn).2.1) ∗ owns (c : Thread nD τ) scM0_1 fullShare ((outsAt0 m c n hn).2.2))

theorem PhiS_zero (c : Dev nD) (n : ℕ) (h : n ≤ cfg0.N) (hz : n = 0) : PhiS m c n h = PhiZ c := by
  subst hz; rfl

theorem PhiS_succ (c : Dev nD) (n : ℕ) (hn : n < cfg0.N) :
    PhiS m c (n + 1) hn = iprop(owns (c : Thread nD τ) scM0_0 fullShare ((outsAt0 m c n hn).2.1) ∗ owns (c : Thread nD τ) scM0_1 fullShare ((outsAt0 m c n hn).2.2)) := rfl

theorem PhiS_pos (c : Dev nD) (n : ℕ) (h : n ≤ cfg0.N) (hz : n ≠ 0) :
    PhiS m c n h = iprop(owns (c : Thread nD τ) scM0_0 fullShare ((outsAt0 m c (n - 1) (by omega)).2.1) ∗ owns (c : Thread nD τ) scM0_1 fullShare ((outsAt0 m c (n - 1) (by omega)).2.2)) := by
  cases n with
  | zero => exact absurd rfl hz
  | succ n => rfl

/-! ## The pipeline's proof data -/

/-- The proof data of the one pipeline on core `c`: the arrays as the region finds them; after the body at point `t` each
    input's buffer at its block and the output's at `outsAt0`'s first component; the invariant `PhiS`; nothing owed; the
    adjacency matrix's full share dealt by halves between the two strip windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0_0 (c : Dev nD) (t : Fin cfg0.N) :
    (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves0_1 (c : Dev nD) (t : Fin cfg0.N) :
    (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves0_2 (c : Dev nD) (t : Fin cfg0.N) :
    (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]

set_option maxHeartbeats 4800000 in
/-- The body at any point: the inputs' buffers hold their blocks; the position says which case the point is in; the
    invariant hands the body the scratch buffers at what the point before left (at anything at the first point) and
    takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2]
  have hN : t.val < 4 := lt_of_lt_of_eq t.isLt (show cfg0.N = 4 from N_0)
  by_cases h0 : t.val = 0
  · rw [Dat.leavesExact_idle (dats m 0 c) 3 t (idleAt0_3 t (ncL_of_zero t h0)) (noFlush0_3 t (ncL_of_zero t h0))]
    rw [outsAt0_A m c t h0]
    unfold sout0_A_0 sout0_A_1; (try dsimp only)
    rw [PhiS_castSucc m c t, PhiS_zero m c _ _ h0]; unfold PhiZ
    iintro ⟨⟨HS0, HS1⟩, Ho, ⟨%d0, H0⟩, ⟨%d1, H1⟩, ⟨%d2, H2⟩, ⟨%d3, H3⟩⟩
    iapply ((kernelRun0_A c (grid0.coords t) _ _ _ _ _ _ _ _ _ _ _ _ (cZ_of t h0) (ncM_of_zero t h0) (ncL_of_zero t h0) (iblk m c 0 t) (iblk m c 1 t) (iblk m c 2 t)).2.2.2 _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1]
    · isplitl [HS0]
      · unfold owns; iexists _; isplitr
        swap; · iexact HS0
        ipureintro; exact View.read_writes_of_cover _ _ _ _ _ (scover0_A_0 c _ _ _ _ _ _ _ _ _ _ _ _ _ _ _ _ _ _ _)
      · unfold owns; iexists _; isplitr
        swap; · iexact HS1
        ipureintro; exact View.read_writes_of_cover _ _ _ _ _ (scover0_A_1 c _ _ _ _ _ _ _ _ _ _ _ _ _ _ _ _ _ _ _)
    isplitl [Ho]; · iexact Ho
    isplitl [H0]; · iexact H0
    isplitl [H1]; · iexact H1
    isplitl [H2]; · iexact H2
    iexists _; iexact H3
  · by_cases h3 : t.val = 3
    · rw [show (dats m 0 c).leavesExact 3 t = owns (c : Thread nD τ) (ms0_3 t) fullShare ((dats m 0 c).after 3 t) from by
        unfold Dat.leavesExact; rw [liveAt0_3 t (cL_of_last t h3)], after0_3]
      rw [outsAt0_C m c t h0 h3]
      unfold out0_C_3; (try dsimp only)
      rw [PhiS_castSucc m c t, PhiS_pos m c _ _ h0]
      iintro ⟨⟨HS0, HS1⟩, Ho, ⟨%d0, H0⟩, ⟨%d1, H1⟩, ⟨%d2, H2⟩, ⟨%d3, H3⟩⟩
      iapply ((kernelRun0_C c (grid0.coords t) _ _ _ _ _ _ _ _ _ _ _ _ (ncZ_of_pos t h0) (ncM_of_last t h3) (cL_of_last t h3) (iblk m c 0 t) (iblk m c 1 t) (iblk m c 2 t) _ _).2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _ _ _ _ _)
    · rw [Dat.leavesExact_idle (dats m 0 c) 3 t (idleAt0_3 t (ncL_of_ne t h3)) (noFlush0_3 t (ncL_of_ne t h3))]
      rw [outsAt0_B m c t h0 h3]
      unfold sout0_B_1; (try dsimp only)
      rw [PhiS_castSucc m c t, PhiS_pos m c _ _ h0]
      iintro ⟨⟨HS0, HS1⟩, Ho, ⟨%d0, H0⟩, ⟨%d1, H1⟩, ⟨%d2, H2⟩, ⟨%d3, H3⟩⟩
      iapply ((kernelRun0_B c (grid0.coords t) _ _ _ _ _ _ _ _ _ _ _ _ (ncZ_of_pos t h0) (cM_of_mid t h0 h3) (ncL_of_ne t h3) (iblk m c 0 t) (iblk m c 1 t) (iblk m c 2 t) _ _).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, ⟨%es1, HS1⟩⟩
      isplitl [HS0 HS1]
      · isplitl [HS0]; · iexact HS0
        unfold owns; iexists _; isplitr
        swap; · iexact HS1
        ipureintro; exact View.read_writes_of_cover _ _ _ _ _ (scover0_B_1 c _ _ _ _ _ _ _ _ _ _ _ _ _ _ _ _ _ _ _ _ _)
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : iprop(emp ∗ Pipeline.scopedRest spec0 c) ⊢ (dats m 0 c).Φ 0 := by
  rw [show (dats m 0 c).Φ 0 = PhiS m c 0 (Nat.zero_le _) from rfl, PhiS_zero m c 0 _ rfl, PhiZ_eq]
  iintro ⟨-, H⟩; iexact H

/-- After the last point the invariant gives the scratch buffers back, their contents forgotten. -/
theorem hout (c : Dev nD) : (dats m 0 c).Φ (Fin.last cfg0.N) ⊢ iprop(emp ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 4 := N_0; omega), PhiZ_eq]
  unfold PhiZ
  iintro ⟨HS0, HS1⟩
  isplitr; · iempintro
  isplitl [HS0]
  · iexists _; iexact HS0
  iexists _; iexact HS1

/-! ## The shares -/

/-- The buffers behind the windows' arrays, each whole at the full share at the entry contents, are the proof data's
    arrays at entry: the adjacency matrix's full share dealt by halves between the two strip windows. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) :=
  Entails.of_eq (Pipeline.SharedArrays.arrBufs_eq_arrays_shared (dats m 0 c) arr_whole0 (0 : Fin 4) (1 : Fin 4) (by decide) rfl (by decide) rfl rfl
    (fun w h0 h1 => by
      fin_cases w
      · exact absurd rfl h0
      · exact absurd rfl h1
      · rfl
      · rfl)
    (V m c) _ (fun w => A_eq m c w))

/-! ## The run -/

set_option backward.isDefEq.respectTransparency.types false in
/-- At the compiled mesh, for any values, from any memory with zero counters: every weakly fair execution of @main on the
    TensorCores terminates, and every final state has every array of the pipeline at what the library computes from the
    proof data (an input its entry contents, the output those overwritten by what the body left at the one write-back). -/
theorem run_main : θ_run defs (onTc (τ := τ) (main (F := F))) (s₀ m ρ)
    (fun r => ∀ (c : Dev nD) (w : Fin cfg0.W), r.2.mem ((spec0 w).arr.view.loc (c : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m)
    (hmain := Pipeline.hmain_region cfgs 0 defs₀ Variants.none m main (fun _ => rfl))
    (hsplit := hsplit m)
    (X := fun _ => iprop(emp)) (Y := fun _ => iprop(emp)) (Z := fun _ => iprop(emp))
    (hX := fun c => by rw [unscopedRest0_eq]; iintro -; isplitr <;> iempintro)
    (hin := hin m) (hout := hout m)
    (QY := fun _ _ => True)
    (hY := fun c s' => by
      iintro ⟨-, -, HSI⟩; imodintro
      isplitr; · ipureintro; trivial
      iexact HSI)
    (hQ := fun _ h c w => (h c).1 w)

/-- info: 'Cert.Kernel.Fr.run_main' depends on axioms: [propext, Classical.choice, Quot.sound] -/
#guard_msgs in #print axioms run_main

/-- The two argument arrays end as they began: both are inputs of the pipeline, never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c 0).trans (((dats m 0 c).arrAt_in 0 rfl _).trans (A_eq m c 0)),
     (h c 2).trans (((dats m 0 c).arrAt_in 2 rfl _).trans (A_eq m c 2))⟩) (run_main m ρ)

end Cert.Kernel.Fr

end
-- ==== Proof.KI.Runs.lean ====
/-
  The kernel's frame, what its three control cases share.

  The kernel walks a grid of four points. Each point stages two column strips of the adjacency matrix (10000 x 256
  each, strips 2t and 2t + 1 of the eight), the embedding matrix (10000 x 128, one constant block) and the output
  (10000 x 128, one constant block, written back after the last point only). Two scratch buffers of the kernel's
  own live across the points: the embeddings recast (stored at the first point, read at every point) and the
  running sum of the strips' contributions (stored at the first point, added to at the middle points, read at
  the last).

  The body branches on the grid coordinate alone, three ways: the first point, the middle points, the last point.
  Here are the conditions in closed form over the grid, where the output window is idle, the staging and scratch
  memrefs as the pipeline passes them, and that an input window's buffer holds its block at every point.
-/
import proofs.«134454_g6751688590051_cont_9to1c4b_755_28_alg».proof.Proof.Gen.KernelIdeal.Launch
import proofs.«134454_g6751688590051_cont_9to1c4b_755_28_alg».proof.Proof.Gen.KernelIdeal.Skeleton
import proofs.«134454_g6751688590051_cont_9to1c4b_755_28_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- Core `c`'s buffer contents when the region is entered: the launch contents (no host operation precedes it). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions, from the grid coordinate -/

/-- "This is the first point": the condition of the two conditionals that store the recast embeddings and
    the first strips' contribution. -/
abbrev condZ (i : grid0.Coords) : Prop := (Scalar.cmpi .ne (Scalar.extui (Scalar.cmpi .eq (BitVec.ofNat 32 (i 0).val) 0#32)) 0#32) = 1#1
theorem hcondZ : ∀ t : Fin cfg0.N, condZ (grid0.coords t) ↔ t.val = 0 :=
  (by decide +kernel : ∀ t : Fin grid0.N, condZ (grid0.coords t) ↔ t.val = 0)

/-- "This is neither the first nor the last point": the condition of the conditional that adds to the running sum. -/
abbrev condM (i : grid0.Coords) : Prop := (Scalar.cmpi .ne (Scalar.extui (Scalar.andi (Scalar.cmpi .ne (BitVec.ofNat 32 (i 0).val) 0#32) (Scalar.cmpi .ne (BitVec.ofNat 32 (i 0).val) 3#32))) 0#32) = 1#1
theorem hcondM : ∀ t : Fin cfg0.N, condM (grid0.coords t) ↔ (t.val = 1 ∨ t.val = 2) :=
  (by decide +kernel : ∀ t : Fin grid0.N, condM (grid0.coords t) ↔ (t.val = 1 ∨ t.val = 2))

/-- "This is the last point": the condition of the conditional that stores the output. -/
abbrev condL (i : grid0.Coords) : Prop := k0_cond4 i = 1#1
theorem hcondL : ∀ t : Fin cfg0.N, condL (grid0.coords t) ↔ t.val = 3 :=
  (by decide +kernel : ∀ t : Fin grid0.N, condL (grid0.coords t) ↔ t.val = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off the last point the output window is idle (nothing is stored into it) and is not written back. -/
theorem idleAt0_3 : ∀ t : Fin cfg0.N, ¬condL (grid0.coords t) → cfg0.idle 3 (grid0.coords t) = true := by decide +kernel
theorem noFlush0_3 : ∀ t : Fin cfg0.N, ¬condL (grid0.coords t) → (cfg0.win 3).flush t = false := by decide +kernel
/-- At the last point it is live. -/
theorem liveAt0_3 : ∀ t : Fin cfg0.N, condL (grid0.coords t) → cfg0.idle 3 (grid0.coords t) = false := by decide +kernel

/-! ## The staging and scratch memrefs -/

/-- One staging buffer of the output window, through which its contents are stated. -/
abbrev VO0_3 : View sig .tc .vmem S10000x128 .f32 := (Memref.whole cc0_stg3_0 : Memref sig .tc .vmem S10000x128 .f32).view
/-- Each window's current staging memref at point `t`, as the pipeline passes it, and its wholeness. -/
abbrev ms0_0 (t : Fin cfg0.N) : Memref sig .tc .vmem S10000x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S10000x128 .f32 := win0_3.stage (cfg0.slots t 3)
abbrev hs0_3 (t : Fin cfg0.N) : (ms0_3 t).IsWhole := hstage0_3 ((cfg0.slots t 3).cast nbuf0_3)
/-- The scratch operands: whole scoped buffers of the kernel's own. -/
abbrev scM0_0 : Memref sig .tc .vmem S10000x128 .bf16 := Memref.whole cc0_scratch0
abbrev scM0_1 : Memref sig .tc .vmem S10000x128 .bf16 := Memref.whole cc0_scratch1
abbrev VS0_0 : View sig .tc .vmem S10000x128 .bf16 := scM0_0.view
abbrev VS0_1 : View sig .tc .vmem S10000x128 .bf16 := scM0_1.view

/-- What the launch hands the region besides the windows: the two scratch buffers, each at some contents. -/
def PhiZ (c : Dev nD) : sProp 𝕄 :=
  iprop((∃ d, owns (c : Thread nD τ) scM0_0 fullShare d) ∗ (∃ d, owns (c : Thread nD τ) scM0_1 fullShare d))

theorem PhiZ_eq (c : Dev nD) :
    (Pipeline.scopedRest (Ix := Unit) (Name := ℕ) (U := UR sig nD τ) (Lvl := ℕ) (Val := Elt F) spec0 c : sProp 𝕄) = PhiZ c := by
  unfold PhiZ; rw [scopedRest0_eq]; simp only [scM0_0, scM0_1, owns_whole]; try rfl

end Cert.KernelIdeal.Fr

end
-- ==== Proof.KI.RunA.lean ====
/-
  The body at the first point.

  There the body recasts the embedding block and stores it whole into the first scratch buffer, reads it back,
  multiplies the two strips through (strip-transpose times embeddings, then strip times that), and stores the sum of
  the two products whole into the second scratch buffer. The output's buffer is left as it was handed in.
  The triple is stated on any whole memrefs; the pieces the two scratch buffers end with are found by running the body.
-/
import proofs.«134454_g6751688590051_cont_9to1c4b_755_28_alg».proof.Proof.KI.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The first point's run: from the three input buffers at their contents, the output's buffer at contents handed back
    untouched, and the two scratch buffers at anything, the body runs to the continuation holding the inputs and the
    output's buffer as they were and each scratch buffer with its pieces written. -/
noncomputable def kernelRun0_A (c : Dev nD) (i : grid0.Coords) (arg1 : Memref sig .tc .vmem S10000x256 .f32) (harg1 : arg1.IsWhole) (arg2 : Memref sig .tc .vmem S10000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole) (hz : condZ i) (hm : ¬condM i) (hl : ¬condL i)
    (x0 : Vec F S10000x256 .f32) (x1 : Vec F S10000x256 .f32) (x2 : Vec F S10000x128 .f32) :
    Σ' (L3 : List (View.Piece (Elt F) S10000x128 .f32)), Σ' (LS0 : List (View.Piece (Elt F) S10000x128 .bf16)), { LS1 : List (View.Piece (Elt F) S10000x128 .bf16) //
      ∀ (xi3 : Vec F S10000x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__hgnn_kernel i arg1 harg1 arg2 harg2 arg3 harg3 arg4 harg4 arg5 harg5 arg6 harg6) K } := by
  refine ⟨[], ?_, ?_, fun xi3 E K => ?run⟩
  case run =>
    simp only [cc0__hgnn_kernel_eq_skeleton]; unfold cc0__hgnn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hz | exact hm | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]
    · iexists _; iexact HS0
    iexists _; iexact HS1

end Cert.KernelIdeal.Fr

end
-- ==== Proof.KI.RunB.lean ====
/-
  The body at a middle point.

  There the body reads the recast embeddings from the first scratch buffer, multiplies the two strips through, reads the
  running sum from the second scratch buffer and stores the sum of that and the two products back into it, whole.
  The first scratch buffer and the output's buffer are left as they were handed in.
-/
import proofs.«134454_g6751688590051_cont_9to1c4b_755_28_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A middle point's run: from the three input buffers at their contents, the output's buffer at contents handed back
    untouched, and the two scratch buffers at what the point before left, the body runs to the continuation holding the
    inputs, the output's buffer and the first scratch buffer as they were and the second scratch buffer with its pieces written. -/
noncomputable def kernelRun0_B (c : Dev nD) (i : grid0.Coords) (arg1 : Memref sig .tc .vmem S10000x256 .f32) (harg1 : arg1.IsWhole) (arg2 : Memref sig .tc .vmem S10000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole) (hz : ¬condZ i) (hm : condM i) (hl : ¬condL i)
    (x0 : Vec F S10000x256 .f32) (x1 : Vec F S10000x256 .f32) (x2 : Vec F S10000x128 .f32) (xs0 : Vec F S10000x128 .bf16) (xs1 : Vec F S10000x128 .bf16) :
    Σ' (L3 : List (View.Piece (Elt F) S10000x128 .f32)), { LS1 : List (View.Piece (Elt F) S10000x128 .bf16) //
      ∀ (xi3 : Vec F S10000x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3
            ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2 ∗ owns (c : Thread nD τ) arg4 fullShare xi3
                ∗ owns (c : Thread nD τ) arg5 fullShare xs0
                ∗ (∃ f, arg6.view.loc (c : Thread nD τ) ↦[arg6.view.set]{fullShare} arg6.view.writes (Elt F) f LS1)) -∗ K ⟨⟩))
          ⊢ wp frame (wpE (defs₀ (F := F)) Variants.none c none) E (cc0__hgnn_kernel i arg1 harg1 arg2 harg2 arg3 harg3 arg4 harg4 arg5 harg5 arg6 harg6) K } := by
  refine ⟨[], ?_, fun xi3 E K => ?run⟩
  case run =>
    simp only [cc0__hgnn_kernel_eq_skeleton]; unfold cc0__hgnn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfs0; obtain rfl := harg6.eq_unread hfs1
    sl_exec (disch := first | exact hz | exact hm | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]
    · iexists _; isplitr; · ipureintro; exact harg5.read_unread _
      iexact HS0
    iexists _; iexact HS1

end Cert.KernelIdeal.Fr

end
-- ==== Proof.KI.RunC.lean ====
/-
  The body at the last point.

  There the body reads the recast embeddings from the first scratch buffer, multiplies the two strips through, reads the
  running sum from the second scratch buffer and stores the sum of that and the two products into the output's
  buffer, whole. Both scratch buffers are left as they were handed in.
-/
import proofs.«134454_g6751688590051_cont_9to1c4b_755_28_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The last point's run: from the three input buffers at their contents, the output's buffer at anything, and the two
    scratch buffers at what the point before left, the body runs to the continuation holding the inputs and the scratch
    buffers as they were and the output's buffer with its pieces written. -/
noncomputable def kernelRun0_C (c : Dev nD) (i : grid0.Coords) (arg1 : Memref sig .tc .vmem S10000x256 .f32) (harg1 : arg1.IsWhole) (arg2 : Memref sig .tc .vmem S10000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole) (hz : ¬condZ i) (hm : ¬condM i) (hl : condL i)
    (x0 : Vec F S10000x256 .f32) (x1 : Vec F S10000x256 .f32) (x2 : Vec F S10000x128 .f32) (xs0 : Vec F S10000x128 .bf16) (xs1 : Vec F S10000x128 .bf16) :
    { L3 : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ owns (c : Thread nD τ) arg5 fullShare xs0 ∗ owns (c : Thread nD τ) arg6 fullShare xs1) -∗ K ⟨⟩))
          ⊢ wp frame (wpE (defs₀ (F := F)) Variants.none c none) E (cc0__hgnn_kernel i arg1 harg1 arg2 harg2 arg3 harg3 arg4 harg4 arg5 harg5 arg6 harg6) K } := by
  refine ⟨?_, fun E K => ?run⟩
  case run =>
    simp only [cc0__hgnn_kernel_eq_skeleton]; unfold cc0__hgnn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg5.eq_unread hfs0; obtain rfl := harg6.eq_unread hfs1
    sl_exec (disch := first | exact hz | exact hm | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    isplitl [HS0]
    · iexists _; isplitr; · ipureintro; exact harg5.read_unread _
      iexact HS0
    iexists _; isplitr; · ipureintro; exact harg6.read_unread _
    iexact HS1

end Cert.KernelIdeal.Fr

end
-- ==== Proof.KI.Frame.lean ====
/-
  The kernel's frame: what the output's buffer and the two scratch buffers hold after each point, the pipeline's
  proof data, the body obligation at every point, and the run.

  The two strip windows read ONE array (the adjacency matrix is handed to the kernel twice): the array's full share
  is dealt between them by halves, the left half to the first strip's window and the right half to the second's;
  both are inputs, so nothing is ever written through either half. The embeddings' window and the output's hold their
  arrays at the full share.

  After the first point the first scratch buffer holds the recast embeddings and the second the first two strips'
  contribution; a middle point leaves the first as it was and adds its two strips' contribution to the second; the
  last point leaves both as they were and stores their sum into the output's buffer, which the pipeline then
  writes back, whole, once.
-/
import proofs.«134454_g6751688590051_cont_9to1c4b_755_28_alg».proof.Proof.KI.RunC
import proofs.«134454_g6751688590051_cont_9to1c4b_755_28_alg».proof.Proof.LibSharedArrays
import Idealize.ShloMosaic.Lib.Pipeline.Launch

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions at a point, from its position -/

theorem cZ_of (t : Fin cfg0.N) (h : t.val = 0) : condZ (grid0.coords t) := (hcondZ t).mpr h
theorem ncM_of_zero (t : Fin cfg0.N) (h : t.val = 0) : ¬condM (grid0.coords t) := fun hc => by have := (hcondM t).mp hc; omega
theorem ncL_of_zero (t : Fin cfg0.N) (h : t.val = 0) : ¬condL (grid0.coords t) := fun hc => by have := (hcondL t).mp hc; omega
theorem ncZ_of_pos (t : Fin cfg0.N) (h : t.val ≠ 0) : ¬condZ (grid0.coords t) := fun hc => h ((hcondZ t).mp hc)
theorem cM_of_mid (t : Fin cfg0.N) (h0 : t.val ≠ 0) (h3 : t.val ≠ 3) : condM (grid0.coords t) :=
  (hcondM t).mpr (by have := lt_of_lt_of_eq t.isLt (show cfg0.N = 4 from N_0); omega)
theorem ncL_of_ne (t : Fin cfg0.N) (h3 : t.val ≠ 3) : ¬condL (grid0.coords t) := fun hc => h3 ((hcondL t).mp hc)
theorem ncM_of_last (t : Fin cfg0.N) (h3 : t.val = 3) : ¬condM (grid0.coords t) := fun hc => by have := (hcondM t).mp hc; omega
theorem cL_of_last (t : Fin cfg0.N) (h3 : t.val = 3) : condL (grid0.coords t) := (hcondL t).mpr h3

/-! ## What each case leaves -/

/-- The first point stores nothing into the output's buffer: a placeholder nothing consults. -/
def out0_A_3 (c : Dev nD) (i : grid0.Coords) (arg1 : Memref sig .tc .vmem S10000x256 .f32) (harg1 : arg1.IsWhole) (arg2 : Memref sig .tc .vmem S10000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole) (hz : condZ i) (hm : ¬condM i) (hl : ¬condL i)
    (x0 : Vec F S10000x256 .f32) (x1 : Vec F S10000x256 .f32) (x2 : Vec F S10000x128 .f32) : Vec F S10000x128 .f32 :=
  VO0_3.read (Elt F) (VO0_3.writes (Elt F) VO0_3.junk (kernelRun0_A c i arg1 harg1 arg2 harg2 arg3 harg3 arg4 harg4 arg5 harg5 arg6 harg6 hz hm hl x0 x1 x2).1)

/-- The first point's one store into the first scratch buffer covers it. -/
theorem scover0_A_0 (c : Dev nD) (i : grid0.Coords) (arg1 : Memref sig .tc .vmem S10000x256 .f32) (harg1 : arg1.IsWhole) (arg2 : Memref sig .tc .vmem S10000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole) (hz : condZ i) (hm : ¬condM i) (hl : ¬condL i)
    (x0 : Vec F S10000x256 .f32) (x1 : Vec F S10000x256 .f32) (x2 : Vec F S10000x128 .f32) (y : S10000x128.Idx) :
    ∃ pc ∈ (kernelRun0_A c i arg1 harg1 arg2 harg2 arg3 harg3 arg4 harg4 arg5 harg5 arg6 harg6 hz hm hl x0 x1 x2).2.1, y ∈ pc.1.set :=
  View.cover_of_tiledL (kernelRun0_A c i arg1 harg1 arg2 harg2 arg3 harg3 arg4 harg4 arg5 harg5 arg6 harg6 hz hm hl x0 x1 x2).2.1 S10000x128.size (by sl_kernel_rfl) y
/-- What the first point leaves in the first scratch buffer. -/
def sout0_A_0 (c : Dev nD) (i : grid0.Coords) (arg1 : Memref sig .tc .vmem S10000x256 .f32) (harg1 : arg1.IsWhole) (arg2 : Memref sig .tc .vmem S10000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole) (hz : condZ i) (hm : ¬condM i) (hl : ¬condL i)
    (x0 : Vec F S10000x256 .f32) (x1 : Vec F S10000x256 .f32) (x2 : Vec F S10000x128 .f32) : Vec F S10000x128 .bf16 :=
  VS0_0.read (Elt F) (VS0_0.writes (Elt F) VS0_0.junk (kernelRun0_A c i arg1 harg1 arg2 harg2 arg3 harg3 arg4 harg4 arg5 harg5 arg6 harg6 hz hm hl x0 x1 x2).2.1)

/-- The first point's one store into the second scratch buffer covers it. -/
theorem scover0_A_1 (c : Dev nD) (i : grid0.Coords) (arg1 : Memref sig .tc .vmem S10000x256 .f32) (harg1 : arg1.IsWhole) (arg2 : Memref sig .tc .vmem S10000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole) (hz : condZ i) (hm : ¬condM i) (hl : ¬condL i)
    (x0 : Vec F S10000x256 .f32) (x1 : Vec F S10000x256 .f32) (x2 : Vec F S10000x128 .f32) (y : S10000x128.Idx) :
    ∃ pc ∈ (kernelRun0_A c i arg1 harg1 arg2 harg2 arg3 harg3 arg4 harg4 arg5 harg5 arg6 harg6 hz hm hl x0 x1 x2).2.2.1, y ∈ pc.1.set :=
  View.cover_of_tiledL (kernelRun0_A c i arg1 harg1 arg2 harg2 arg3 harg3 arg4 harg4 arg5 harg5 arg6 harg6 hz hm hl x0 x1 x2).2.2.1 S10000x128.size (by sl_kernel_rfl) y
/-- What the first point leaves in the second scratch buffer. -/
def sout0_A_1 (c : Dev nD) (i : grid0.Coords) (arg1 : Memref sig .tc .vmem S10000x256 .f32) (harg1 : arg1.IsWhole) (arg2 : Memref sig .tc .vmem S10000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole) (hz : condZ i) (hm : ¬condM i) (hl : ¬condL i)
    (x0 : Vec F S10000x256 .f32) (x1 : Vec F S10000x256 .f32) (x2 : Vec F S10000x128 .f32) : Vec F S10000x128 .bf16 :=
  VS0_1.read (Elt F) (VS0_1.writes (Elt F) VS0_1.junk (kernelRun0_A c i arg1 harg1 arg2 harg2 arg3 harg3 arg4 harg4 arg5 harg5 arg6 harg6 hz hm hl x0 x1 x2).2.2.1)

/-- A middle point stores nothing into the output's buffer: a placeholder nothing consults. -/
def out0_B_3 (c : Dev nD) (i : grid0.Coords) (arg1 : Memref sig .tc .vmem S10000x256 .f32) (harg1 : arg1.IsWhole) (arg2 : Memref sig .tc .vmem S10000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole) (hz : ¬condZ i) (hm : condM i) (hl : ¬condL i)
    (x0 : Vec F S10000x256 .f32) (x1 : Vec F S10000x256 .f32) (x2 : Vec F S10000x128 .f32) (xs0 : Vec F S10000x128 .bf16) (xs1 : Vec F S10000x128 .bf16) : Vec F S10000x128 .f32 :=
  VO0_3.read (Elt F) (VO0_3.writes (Elt F) VO0_3.junk (kernelRun0_B c i arg1 harg1 arg2 harg2 arg3 harg3 arg4 harg4 arg5 harg5 arg6 harg6 hz hm hl x0 x1 x2 xs0 xs1).1)

/-- A middle point's one store into the second scratch buffer covers it. -/
theorem scover0_B_1 (c : Dev nD) (i : grid0.Coords) (arg1 : Memref sig .tc .vmem S10000x256 .f32) (harg1 : arg1.IsWhole) (arg2 : Memref sig .tc .vmem S10000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole) (hz : ¬condZ i) (hm : condM i) (hl : ¬condL i)
    (x0 : Vec F S10000x256 .f32) (x1 : Vec F S10000x256 .f32) (x2 : Vec F S10000x128 .f32) (xs0 : Vec F S10000x128 .bf16) (xs1 : Vec F S10000x128 .bf16) (y : S10000x128.Idx) :
    ∃ pc ∈ (kernelRun0_B c i arg1 harg1 arg2 harg2 arg3 harg3 arg4 harg4 arg5 harg5 arg6 harg6 hz hm hl x0 x1 x2 xs0 xs1).2.1, y ∈ pc.1.set :=
  View.cover_of_tiledL (kernelRun0_B c i arg1 harg1 arg2 harg2 arg3 harg3 arg4 harg4 arg5 harg5 arg6 harg6 hz hm hl x0 x1 x2 xs0 xs1).2.1 S10000x128.size (by sl_kernel_rfl) y
/-- What a middle point leaves in the second scratch buffer. -/
def sout0_B_1 (c : Dev nD) (i : grid0.Coords) (arg1 : Memref sig .tc .vmem S10000x256 .f32) (harg1 : arg1.IsWhole) (arg2 : Memref sig .tc .vmem S10000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole) (hz : ¬condZ i) (hm : condM i) (hl : ¬condL i)
    (x0 : Vec F S10000x256 .f32) (x1 : Vec F S10000x256 .f32) (x2 : Vec F S10000x128 .f32) (xs0 : Vec F S10000x128 .bf16) (xs1 : Vec F S10000x128 .bf16) : Vec F S10000x128 .bf16 :=
  VS0_1.read (Elt F) (VS0_1.writes (Elt F) VS0_1.junk (kernelRun0_B c i arg1 harg1 arg2 harg2 arg3 harg3 arg4 harg4 arg5 harg5 arg6 harg6 hz hm hl x0 x1 x2 xs0 xs1).2.1)

/-- The last point's one store into the output's buffer covers it. -/
theorem cover0_C_3 (c : Dev nD) (i : grid0.Coords) (arg1 : Memref sig .tc .vmem S10000x256 .f32) (harg1 : arg1.IsWhole) (arg2 : Memref sig .tc .vmem S10000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole) (hz : ¬condZ i) (hm : ¬condM i) (hl : condL i)
    (x0 : Vec F S10000x256 .f32) (x1 : Vec F S10000x256 .f32) (x2 : Vec F S10000x128 .f32) (xs0 : Vec F S10000x128 .bf16) (xs1 : Vec F S10000x128 .bf16) (y : S10000x128.Idx) :
    ∃ pc ∈ (kernelRun0_C c i arg1 harg1 arg2 harg2 arg3 harg3 arg4 harg4 arg5 harg5 arg6 harg6 hz hm hl x0 x1 x2 xs0 xs1).1, y ∈ pc.1.set :=
  View.cover_of_tiledL (kernelRun0_C c i arg1 harg1 arg2 harg2 arg3 harg3 arg4 harg4 arg5 harg5 arg6 harg6 hz hm hl x0 x1 x2 xs0 xs1).1 S10000x128.size (by sl_kernel_rfl) y
/-- What the last point leaves in the output's buffer. -/
def out0_C_3 (c : Dev nD) (i : grid0.Coords) (arg1 : Memref sig .tc .vmem S10000x256 .f32) (harg1 : arg1.IsWhole) (arg2 : Memref sig .tc .vmem S10000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole) (hz : ¬condZ i) (hm : ¬condM i) (hl : condL i)
    (x0 : Vec F S10000x256 .f32) (x1 : Vec F S10000x256 .f32) (x2 : Vec F S10000x128 .f32) (xs0 : Vec F S10000x128 .bf16) (xs1 : Vec F S10000x128 .bf16) : Vec F S10000x128 .f32 :=
  VO0_3.read (Elt F) (VO0_3.writes (Elt F) VO0_3.junk (kernelRun0_C c i arg1 harg1 arg2 harg2 arg3 harg3 arg4 harg4 arg5 harg5 arg6 harg6 hz hm hl x0 x1 x2 xs0 xs1).1)

/-! ## What the buffers hold after each point -/

/-- After the body at position `n`: the output's buffer, the first scratch buffer, the second scratch buffer. -/
def outsAt0 (c : Dev nD) : (n : ℕ) → n < cfg0.N → Vec F S10000x128 .f32 × Vec F S10000x128 .bf16 × Vec F S10000x128 .bf16
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) (cZ_of ⟨0, hn⟩ rfl) (ncM_of_zero ⟨0, hn⟩ rfl) (ncL_of_zero ⟨0, hn⟩ rfl) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) (cZ_of ⟨0, hn⟩ rfl) (ncM_of_zero ⟨0, hn⟩ rfl) (ncL_of_zero ⟨0, hn⟩ rfl) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) (cZ_of ⟨0, hn⟩ rfl) (ncM_of_zero ⟨0, hn⟩ rfl) (ncL_of_zero ⟨0, hn⟩ rfl) (iblk m c 0 ⟨0, hn⟩) (iblk m c 1 ⟨0, hn⟩) (iblk m c 2 ⟨0, hn⟩))
  | n + 1, hn =>
    if h3 : n + 1 = 3 then
      (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (ncZ_of_pos ⟨n + 1, hn⟩ (Nat.succ_ne_zero n)) (ncM_of_last ⟨n + 1, hn⟩ h3) (cL_of_last ⟨n + 1, hn⟩ h3) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, (outsAt0 c n (Nat.lt_of_succ_lt hn)).2.1, (outsAt0 c n (Nat.lt_of_succ_lt hn)).2.2)
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (ncZ_of_pos ⟨n + 1, hn⟩ (Nat.succ_ne_zero n)) (cM_of_mid ⟨n + 1, hn⟩ (Nat.succ_ne_zero n) h3) (ncL_of_ne ⟨n + 1, hn⟩ h3) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, (outsAt0 c n (Nat.lt_of_succ_lt hn)).2.1, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (ncZ_of_pos ⟨n + 1, hn⟩ (Nat.succ_ne_zero n)) (cM_of_mid ⟨n + 1, hn⟩ (Nat.succ_ne_zero n) h3) (ncL_of_ne ⟨n + 1, hn⟩ h3) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2)

theorem outsAt0_A (c : Dev nD) (t : Fin cfg0.N) (h0 : t.val = 0) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (cZ_of t h0) (ncM_of_zero t h0) (ncL_of_zero t h0) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (cZ_of t h0) (ncM_of_zero t h0) (ncL_of_zero t h0) (iblk m c 0 t) (iblk m c 1 t) (iblk m c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (cZ_of t h0) (ncM_of_zero t h0) (ncL_of_zero t h0) (iblk m c 0 t) (iblk m c 1 t) (iblk m c 2 t)) := by
  obtain ⟨n, hn⟩ := t
  cases n with
  | zero => exact rfl
  | succ n => exact absurd h0 (Nat.succ_ne_zero n)

theorem outsAt0_B (c : Dev nD) (t : Fin cfg0.N) (h0 : t.val ≠ 0) (h3 : t.val ≠ 3) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (ncZ_of_pos t h0) (cM_of_mid t h0 h3) (ncL_of_ne t h3) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, (outsAt0 m c (t.val - 1) (Nat.lt_of_le_of_lt (Nat.sub_le _ _) t.isLt)).2.1, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (ncZ_of_pos t h0) (cM_of_mid t h0 h3) (ncL_of_ne t h3) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact absurd rfl h0
  | succ n => exact (dif_neg h3).trans rfl

theorem outsAt0_C (c : Dev nD) (t : Fin cfg0.N) (h0 : t.val ≠ 0) (h3 : t.val = 3) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (ncZ_of_pos t h0) (ncM_of_last t h3) (cL_of_last t h3) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, (outsAt0 m c (t.val - 1) (Nat.lt_of_le_of_lt (Nat.sub_le _ _) t.isLt)).2.1, (outsAt0 m c (t.val - 1) (Nat.lt_of_le_of_lt (Nat.sub_le _ _) t.isLt)).2.2) := by
  obtain ⟨n, hn⟩ := t
  cases n with
  | zero => exact absurd rfl h0
  | succ n => exact (dif_pos h3).trans rfl

/-- The region invariant before position `n`: before the first point both scratch buffers at anything; afterwards each at
    what the point before left in it. -/
def PhiS (c : Dev nD) : (n : ℕ) → n ≤ cfg0.N → sProp 𝕄
  | 0, _ => PhiZ c
  | n + 1, hn => iprop(owns (c : Thread nD τ) scM0_0 fullShare ((outsAt0 m c n hn).2.1) ∗ owns (c : Thread nD τ) scM0_1 fullShare ((outsAt0 m c n hn).2.2))

theorem PhiS_zero (c : Dev nD) (n : ℕ) (h : n ≤ cfg0.N) (hz : n = 0) : PhiS m c n h = PhiZ c := by
  subst hz; rfl

theorem PhiS_succ (c : Dev nD) (n : ℕ) (hn : n < cfg0.N) :
    PhiS m c (n + 1) hn = iprop(owns (c : Thread nD τ) scM0_0 fullShare ((outsAt0 m c n hn).2.1) ∗ owns (c : Thread nD τ) scM0_1 fullShare ((outsAt0 m c n hn).2.2)) := rfl

theorem PhiS_pos (c : Dev nD) (n : ℕ) (h : n ≤ cfg0.N) (hz : n ≠ 0) :
    PhiS m c n h = iprop(owns (c : Thread nD τ) scM0_0 fullShare ((outsAt0 m c (n - 1) (by omega)).2.1) ∗ owns (c : Thread nD τ) scM0_1 fullShare ((outsAt0 m c (n - 1) (by omega)).2.2)) := by
  cases n with
  | zero => exact absurd rfl hz
  | succ n => rfl

/-! ## The pipeline's proof data -/

/-- The proof data of the one pipeline on core `c`: the arrays as the region finds them; after the body at point `t` each
    input's buffer at its block and the output's at `outsAt0`'s first component; the invariant `PhiS`; nothing owed; the
    adjacency matrix's full share dealt by halves between the two strip windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0_0 (c : Dev nD) (t : Fin cfg0.N) :
    (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves0_1 (c : Dev nD) (t : Fin cfg0.N) :
    (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves0_2 (c : Dev nD) (t : Fin cfg0.N) :
    (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]

set_option maxHeartbeats 4800000 in
/-- The body at any point: the inputs' buffers hold their blocks; the position says which case the point is in; the
    invariant hands the body the scratch buffers at what the point before left (at anything at the first point) and
    takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2]
  have hN : t.val < 4 := lt_of_lt_of_eq t.isLt (show cfg0.N = 4 from N_0)
  by_cases h0 : t.val = 0
  · rw [Dat.leavesExact_idle (dats m 0 c) 3 t (idleAt0_3 t (ncL_of_zero t h0)) (noFlush0_3 t (ncL_of_zero t h0))]
    rw [outsAt0_A m c t h0]
    unfold sout0_A_0 sout0_A_1; (try dsimp only)
    rw [PhiS_castSucc m c t, PhiS_zero m c _ _ h0]; unfold PhiZ
    iintro ⟨⟨HS0, HS1⟩, Ho, ⟨%d0, H0⟩, ⟨%d1, H1⟩, ⟨%d2, H2⟩, ⟨%d3, H3⟩⟩
    iapply ((kernelRun0_A c (grid0.coords t) _ _ _ _ _ _ _ _ _ _ _ _ (cZ_of t h0) (ncM_of_zero t h0) (ncL_of_zero t h0) (iblk m c 0 t) (iblk m c 1 t) (iblk m c 2 t)).2.2.2 _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1]
    · isplitl [HS0]
      · unfold owns; iexists _; isplitr
        swap; · iexact HS0
        ipureintro; exact View.read_writes_of_cover _ _ _ _ _ (scover0_A_0 c _ _ _ _ _ _ _ _ _ _ _ _ _ _ _ _ _ _ _)
      · unfold owns; iexists _; isplitr
        swap; · iexact HS1
        ipureintro; exact View.read_writes_of_cover _ _ _ _ _ (scover0_A_1 c _ _ _ _ _ _ _ _ _ _ _ _ _ _ _ _ _ _ _)
    isplitl [Ho]; · iexact Ho
    isplitl [H0]; · iexact H0
    isplitl [H1]; · iexact H1
    isplitl [H2]; · iexact H2
    iexists _; iexact H3
  · by_cases h3 : t.val = 3
    · rw [show (dats m 0 c).leavesExact 3 t = owns (c : Thread nD τ) (ms0_3 t) fullShare ((dats m 0 c).after 3 t) from by
        unfold Dat.leavesExact; rw [liveAt0_3 t (cL_of_last t h3)], after0_3]
      rw [outsAt0_C m c t h0 h3]
      unfold out0_C_3; (try dsimp only)
      rw [PhiS_castSucc m c t, PhiS_pos m c _ _ h0]
      iintro ⟨⟨HS0, HS1⟩, Ho, ⟨%d0, H0⟩, ⟨%d1, H1⟩, ⟨%d2, H2⟩, ⟨%d3, H3⟩⟩
      iapply ((kernelRun0_C c (grid0.coords t) _ _ _ _ _ _ _ _ _ _ _ _ (ncZ_of_pos t h0) (ncM_of_last t h3) (cL_of_last t h3) (iblk m c 0 t) (iblk m c 1 t) (iblk m c 2 t) _ _).2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _ _ _ _ _)
    · rw [Dat.leavesExact_idle (dats m 0 c) 3 t (idleAt0_3 t (ncL_of_ne t h3)) (noFlush0_3 t (ncL_of_ne t h3))]
      rw [outsAt0_B m c t h0 h3]
      unfold sout0_B_1; (try dsimp only)
      rw [PhiS_castSucc m c t, PhiS_pos m c _ _ h0]
      iintro ⟨⟨HS0, HS1⟩, Ho, ⟨%d0, H0⟩, ⟨%d1, H1⟩, ⟨%d2, H2⟩, ⟨%d3, H3⟩⟩
      iapply ((kernelRun0_B c (grid0.coords t) _ _ _ _ _ _ _ _ _ _ _ _ (ncZ_of_pos t h0) (cM_of_mid t h0 h3) (ncL_of_ne t h3) (iblk m c 0 t) (iblk m c 1 t) (iblk m c 2 t) _ _).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, ⟨%es1, HS1⟩⟩
      isplitl [HS0 HS1]
      · isplitl [HS0]; · iexact HS0
        unfold owns; iexists _; isplitr
        swap; · iexact HS1
        ipureintro; exact View.read_writes_of_cover _ _ _ _ _ (scover0_B_1 c _ _ _ _ _ _ _ _ _ _ _ _ _ _ _ _ _ _ _ _ _)
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : iprop(emp ∗ Pipeline.scopedRest spec0 c) ⊢ (dats m 0 c).Φ 0 := by
  rw [show (dats m 0 c).Φ 0 = PhiS m c 0 (Nat.zero_le _) from rfl, PhiS_zero m c 0 _ rfl, PhiZ_eq]
  iintro ⟨-, H⟩; iexact H

/-- After the last point the invariant gives the scratch buffers back, their contents forgotten. -/
theorem hout (c : Dev nD) : (dats m 0 c).Φ (Fin.last cfg0.N) ⊢ iprop(emp ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 4 := N_0; omega), PhiZ_eq]
  unfold PhiZ
  iintro ⟨HS0, HS1⟩
  isplitr; · iempintro
  isplitl [HS0]
  · iexists _; iexact HS0
  iexists _; iexact HS1

/-! ## The shares -/

/-- The buffers behind the windows' arrays, each whole at the full share at the entry contents, are the proof data's
    arrays at entry: the adjacency matrix's full share dealt by halves between the two strip windows. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) :=
  Entails.of_eq (Pipeline.SharedArrays.arrBufs_eq_arrays_shared (dats m 0 c) arr_whole0 (0 : Fin 4) (1 : Fin 4) (by decide) rfl (by decide) rfl rfl
    (fun w h0 h1 => by
      fin_cases w
      · exact absurd rfl h0
      · exact absurd rfl h1
      · rfl
      · rfl)
    (V m c) _ (fun w => A_eq m c w))

/-! ## The run -/

set_option backward.isDefEq.respectTransparency.types false in
/-- At the compiled mesh, for any values, from any memory with zero counters: every weakly fair execution of @main on the
    TensorCores terminates, and every final state has every array of the pipeline at what the library computes from the
    proof data (an input its entry contents, the output those overwritten by what the body left at the one write-back). -/
theorem run_main : θ_run defs (onTc (τ := τ) (main (F := F))) (s₀ m ρ)
    (fun r => ∀ (c : Dev nD) (w : Fin cfg0.W), r.2.mem ((spec0 w).arr.view.loc (c : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m)
    (hmain := Pipeline.hmain_region cfgs 0 defs₀ Variants.none m main (fun _ => rfl))
    (hsplit := hsplit m)
    (X := fun _ => iprop(emp)) (Y := fun _ => iprop(emp)) (Z := fun _ => iprop(emp))
    (hX := fun c => by rw [unscopedRest0_eq]; iintro -; isplitr <;> iempintro)
    (hin := hin m) (hout := hout m)
    (QY := fun _ _ => True)
    (hY := fun c s' => by
      iintro ⟨-, -, HSI⟩; imodintro
      isplitr; · ipureintro; trivial
      iexact HSI)
    (hQ := fun _ h c w => (h c).1 w)

/-- info: 'Cert.KernelIdeal.Fr.run_main' depends on axioms: [propext, Classical.choice, Quot.sound] -/
#guard_msgs in #print axioms run_main

/-- The two argument arrays end as they began: both are inputs of the pipeline, never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c 0).trans (((dats m 0 c).arrAt_in 0 rfl _).trans (A_eq m c 0)),
     (h c 2).trans (((dats m 0 c).arrAt_in 2 rfl _).trans (A_eq m c 2))⟩) (run_main m ρ)

end Cert.KernelIdeal.Fr

end
-- ==== Proof.KI.Pieces.lean ====
/-
  What each case of the body leaves, as the body's arithmetic of what it read.

  Each store of the body covers its buffer whole, so the buffer ends at the stored value; and a whole buffer read back
  whole is its contents. So the first point leaves the recast embeddings in the first scratch buffer and, in the
  second, the two strips' products of the embeddings just recast; a middle point leaves in the second scratch buffer
  its old contents plus the products; the last point leaves that sum in the output's buffer.
-/
import proofs.«134454_g6751688590051_cont_9to1c4b_755_28_alg».proof.Proof.KI.Frame
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable {F : FTy → Type} [FloatOps F]

/-- The stores and loads of the body all start at the origin of their buffer. -/
theorem off00 : (![0, 0] : Fin S10000x128.rank → Nat) = fun _ => 0 := by
  funext a; fin_cases a <;> rfl
theorem off00' : (![0, 0] : Fin S10000x256.rank → Nat) = fun _ => 0 := by
  funext a; fin_cases a <;> rfl

/-- The first point leaves the recast embeddings in the first scratch buffer. -/
theorem sout0_A_0_eq (c : Dev nD) (i : grid0.Coords) (arg1 : Memref sig .tc .vmem S10000x256 .f32) (harg1 : arg1.IsWhole) (arg2 : Memref sig .tc .vmem S10000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole) (hz : condZ i) (hm : ¬condM i) (hl : ¬condL i)
    (x0 : Vec F S10000x256 .f32) (x1 : Vec F S10000x256 .f32) (x2 : Vec F S10000x128 .f32) :
    sout0_A_0 (F := F) c i arg1 harg1 arg2 harg2 arg3 harg3 arg4 harg4 arg5 harg5 arg6 harg6 hz hm hl x0 x1 x2 = k0_pay1 x2 := by
  unfold sout0_A_0
  rw [View.read_writes_eq_canon _ _ _ (scover0_A_0 c i arg1 harg1 arg2 harg2 arg3 harg3 arg4 harg4 arg5 harg5 arg6 harg6 hz hm hl x0 x1 x2)]
  unfold kernelRun0_A
  dsimp only
  sl_unfold_words
  rw [View.canon_unit_zero off00]
  simp only [View.readAt_eq_ld, harg3.read_unread, View.ld_unit_zero (S := S10000x128) off00]

/-- The first point leaves, in the second scratch buffer, the two strips' products of the embeddings it has just recast. -/
theorem sout0_A_1_eq (c : Dev nD) (i : grid0.Coords) (arg1 : Memref sig .tc .vmem S10000x256 .f32) (harg1 : arg1.IsWhole) (arg2 : Memref sig .tc .vmem S10000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole) (hz : condZ i) (hm : ¬condM i) (hl : ¬condL i)
    (x0 : Vec F S10000x256 .f32) (x1 : Vec F S10000x256 .f32) (x2 : Vec F S10000x128 .f32) :
    sout0_A_1 (F := F) c i arg1 harg1 arg2 harg2 arg3 harg3 arg4 harg4 arg5 harg5 arg6 harg6 hz hm hl x0 x1 x2 = k0_pay5 (k0_pay1 x2) x0 x1 := by
  unfold sout0_A_1
  rw [View.read_writes_eq_canon _ _ _ (scover0_A_1 c i arg1 harg1 arg2 harg2 arg3 harg3 arg4 harg4 arg5 harg5 arg6 harg6 hz hm hl x0 x1 x2)]
  unfold kernelRun0_A
  dsimp only
  sl_unfold_words
  rw [View.canon_unit_zero off00]
  simp only [View.readAt_eq_ld, harg1.read_unread, harg2.read_unread, harg3.read_unread, View.ld_unit_zero (S := S10000x128) off00,
    View.ld_unit_zero (S := S10000x256) off00', View.readCov_unit_zero (S := S10000x128) _ off00]

/-- A middle point leaves, in the second scratch buffer, what it held plus the two strips' products. -/
theorem sout0_B_1_eq (c : Dev nD) (i : grid0.Coords) (arg1 : Memref sig .tc .vmem S10000x256 .f32) (harg1 : arg1.IsWhole) (arg2 : Memref sig .tc .vmem S10000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole) (hz : ¬condZ i) (hm : condM i) (hl : ¬condL i)
    (x0 : Vec F S10000x256 .f32) (x1 : Vec F S10000x256 .f32) (x2 : Vec F S10000x128 .f32) (xs0 : Vec F S10000x128 .bf16) (xs1 : Vec F S10000x128 .bf16) :
    sout0_B_1 (F := F) c i arg1 harg1 arg2 harg2 arg3 harg3 arg4 harg4 arg5 harg5 arg6 harg6 hz hm hl x0 x1 x2 xs0 xs1 = k0_pay6 xs0 x0 x1 xs1 := by
  unfold sout0_B_1
  rw [View.read_writes_eq_canon _ _ _ (scover0_B_1 c i arg1 harg1 arg2 harg2 arg3 harg3 arg4 harg4 arg5 harg5 arg6 harg6 hz hm hl x0 x1 x2 xs0 xs1)]
  unfold kernelRun0_B
  dsimp only
  sl_unfold_words
  rw [View.canon_unit_zero off00]
  simp only [View.readAt_eq_ld, harg1.read_unread, harg2.read_unread, harg5.read_unread, harg6.read_unread, View.ld_unit_zero (S := S10000x128) off00,
    View.ld_unit_zero (S := S10000x256) off00']

/-- The last point leaves, in the output's buffer, the running sum plus the two strips' products. -/
theorem out0_C_3_eq (c : Dev nD) (i : grid0.Coords) (arg1 : Memref sig .tc .vmem S10000x256 .f32) (harg1 : arg1.IsWhole) (arg2 : Memref sig .tc .vmem S10000x256 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole) (hz : ¬condZ i) (hm : ¬condM i) (hl : condL i)
    (x0 : Vec F S10000x256 .f32) (x1 : Vec F S10000x256 .f32) (x2 : Vec F S10000x128 .f32) (xs0 : Vec F S10000x128 .bf16) (xs1 : Vec F S10000x128 .bf16) :
    out0_C_3 (F := F) c i arg1 harg1 arg2 harg2 arg3 harg3 arg4 harg4 arg5 harg5 arg6 harg6 hz hm hl x0 x1 x2 xs0 xs1 = k0_pay7 xs0 x0 x1 xs1 := by
  unfold out0_C_3
  rw [View.read_writes_eq_canon _ _ _ (cover0_C_3 c i arg1 harg1 arg2 harg2 arg3 harg3 arg4 harg4 arg5 harg5 arg6 harg6 hz hm hl x0 x1 x2 xs0 xs1)]
  unfold kernelRun0_C
  dsimp only
  sl_unfold_words
  rw [View.canon_unit_zero off00]
  simp only [View.readAt_eq_ld, harg1.read_unread, harg2.read_unread, harg5.read_unread, harg6.read_unread, View.ld_unit_zero (S := S10000x128) off00,
    View.ld_unit_zero (S := S10000x256) off00']

end Cert.KernelIdeal.Val

end
-- ==== Proof.KI.Payload.lean ====
/-
  The kernel body's arithmetic at the ideal values, entry by entry.

  At the ideal values a change of float format is the identity and a matrix product into a zero accumulator is the plain
  sum of products. So the strip-through product of the body — strip-transpose times embeddings (a 256 x 128 matrix),
  then strip times that — is, at entry (i, d), the sum over the strip's 256 columns j of x[i, j] times the sum over the
  10000 rows k of x[k, j] e[k, d]; the recast of the embeddings is the embeddings; and the three stored values are the
  two strips' products added, and that added to the running sum.
-/
import proofs.«134454_g6751688590051_cont_9to1c4b_755_28_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Val

open Cert.KernelIdeal Cert.KernelIdeal.Gen
open Idealize.ShloMosaic Idealize.ShloMosaic.ValueIdx
open scoped BigOperators

/-- A strip multiplied through: x (xᵀ e) at an entry, for a 10000 x 256 strip x and the 10000 x 128 embeddings e. -/
def through (e : Vec Ideal S10000x128 .bf16) (x : Vec Ideal S10000x256 .f32) : S10000x128.Idx → EReal :=
  fun i => ∑ j : Fin 256, x (ix2 (i 0) j) * ∑ k : Fin 10000, x (ix2 k j) * e (ix2 k (i 1))

/-! ## The operand indices of the two products

The first product contracts the strip's rows against the embeddings' rows (axis 0 of both): its result's entry (j, d)
reads the strip at (k, j) and the embeddings at (k, d). The second contracts the strip's columns against the first
product's rows: its result's entry (i, d) reads the strip at (i, j) and the first product at (j, d). -/

theorem lhs_inner_0 (i : S256x128.Idx) (q : dot_S10000x256_S10000x128_S256x128_0_0_1_1_n_n.contr.Idx) :
    (dot_S10000x256_S10000x128_S256x128_0_0_1_1_n_n.lhsIdx i q 0).val = (q ⟨0, by decide⟩).val :=
  dot_S10000x256_S10000x128_S256x128_0_0_1_1_n_n.lhsIdx_val_of_single rfl i q
theorem lhs_inner_1 (i : S256x128.Idx) (q : dot_S10000x256_S10000x128_S256x128_0_0_1_1_n_n.contr.Idx) :
    (dot_S10000x256_S10000x128_S256x128_0_0_1_1_n_n.lhsIdx i q 1).val = (i 0).val := by
  unfold DotDims.lhsIdx
  rw [dif_neg (show ¬(1 : Fin S10000x256.rank) ∈ dot_S10000x256_S10000x128_S256x128_0_0_1_1_n_n.lhsBatch by decide), dif_pos (show (1 : Fin S10000x256.rank) ∈ dot_S10000x256_S10000x128_S256x128_0_0_1_1_n_n.lhsNonContracting by decide)]
  rfl
theorem rhs_inner_0 (i : S256x128.Idx) (q : dot_S10000x256_S10000x128_S256x128_0_0_1_1_n_n.contr.Idx) :
    (dot_S10000x256_S10000x128_S256x128_0_0_1_1_n_n.rhsIdx i q 0).val = (q ⟨0, by decide⟩).val :=
  dot_S10000x256_S10000x128_S256x128_0_0_1_1_n_n.rhsIdx_val_of_single rfl i q
theorem rhs_inner_1 (i : S256x128.Idx) (q : dot_S10000x256_S10000x128_S256x128_0_0_1_1_n_n.contr.Idx) :
    (dot_S10000x256_S10000x128_S256x128_0_0_1_1_n_n.rhsIdx i q 1).val = (i 1).val := by
  unfold DotDims.rhsIdx
  rw [dif_neg (show ¬(1 : Fin S10000x128.rank) ∈ dot_S10000x256_S10000x128_S256x128_0_0_1_1_n_n.rhsBatch by decide), dif_pos (show (1 : Fin S10000x128.rank) ∈ dot_S10000x256_S10000x128_S256x128_0_0_1_1_n_n.rhsNonContracting by decide)]
  rfl

theorem lhs_outer_0 (i : S10000x128.Idx) (q : dot_S10000x256_S256x128_S10000x128_1_0_0_1_n_n.contr.Idx) :
    (dot_S10000x256_S256x128_S10000x128_1_0_0_1_n_n.lhsIdx i q 0).val = (i 0).val := by
  unfold DotDims.lhsIdx
  rw [dif_neg (show ¬(0 : Fin S10000x256.rank) ∈ dot_S10000x256_S256x128_S10000x128_1_0_0_1_n_n.lhsBatch by decide), dif_pos (show (0 : Fin S10000x256.rank) ∈ dot_S10000x256_S256x128_S10000x128_1_0_0_1_n_n.lhsNonContracting by decide)]
  rfl
theorem lhs_outer_1 (i : S10000x128.Idx) (q : dot_S10000x256_S256x128_S10000x128_1_0_0_1_n_n.contr.Idx) :
    (dot_S10000x256_S256x128_S10000x128_1_0_0_1_n_n.lhsIdx i q 1).val = (q ⟨0, by decide⟩).val :=
  dot_S10000x256_S256x128_S10000x128_1_0_0_1_n_n.lhsIdx_val_of_single rfl i q
theorem rhs_outer_0 (i : S10000x128.Idx) (q : dot_S10000x256_S256x128_S10000x128_1_0_0_1_n_n.contr.Idx) :
    (dot_S10000x256_S256x128_S10000x128_1_0_0_1_n_n.rhsIdx i q 0).val = (q ⟨0, by decide⟩).val :=
  dot_S10000x256_S256x128_S10000x128_1_0_0_1_n_n.rhsIdx_val_of_single rfl i q
theorem rhs_outer_1 (i : S10000x128.Idx) (q : dot_S10000x256_S256x128_S10000x128_1_0_0_1_n_n.contr.Idx) :
    (dot_S10000x256_S256x128_S10000x128_1_0_0_1_n_n.rhsIdx i q 1).val = (i 1).val := by
  unfold DotDims.rhsIdx
  rw [dif_neg (show ¬(1 : Fin S256x128.rank) ∈ dot_S10000x256_S256x128_S10000x128_1_0_0_1_n_n.rhsBatch by decide), dif_pos (show (1 : Fin S256x128.rank) ∈ dot_S10000x256_S256x128_S10000x128_1_0_0_1_n_n.rhsNonContracting by decide)]
  rfl

/-- The first product at an entry: (xᵀ e)[j, d] is the sum over the rows k of x[k, j] e[k, d]. -/
theorem inner_apply (x : FVec Ideal S10000x256 .bf16) (e : FVec Ideal S10000x128 .bf16) (j : Fin 256) (d : Fin 128) :
    matmul (F := Ideal) dot_S10000x256_S10000x128_S256x128_0_0_1_1_n_n none x e (constant (F := Ideal) S256x128 .f32 0x00000000#32) (ix2 j d)
      = ∑ k : Fin 10000, x (ix2 k j) * e (ix2 k d) := by
  simp only [matmul]
  rw [Ideal.matmul_constant_zero_apply, ← Equiv.sum_comp (ValueIdx.contrEquiv1 dot_S10000x256_S10000x128_S256x128_0_0_1_1_n_n 10000 rfl rfl).symm]
  refine Finset.sum_congr rfl fun k _ => ?_
  have hk := ValueIdx.contrEquiv1_symm_val dot_S10000x256_S10000x128_S256x128_0_0_1_1_n_n 10000 rfl rfl k
  have el : dot_S10000x256_S10000x128_S256x128_0_0_1_1_n_n.lhsIdx (ix2 j d) ((ValueIdx.contrEquiv1 dot_S10000x256_S10000x128_S256x128_0_0_1_1_n_n 10000 rfl rfl).symm k) = ix2 k j := funext fun a => Fin.ext (by
    match a with
    | ⟨0, _⟩ => exact (lhs_inner_0 _ _).trans hk
    | ⟨1, _⟩ => exact lhs_inner_1 _ _)
  have er : dot_S10000x256_S10000x128_S256x128_0_0_1_1_n_n.rhsIdx (ix2 j d) ((ValueIdx.contrEquiv1 dot_S10000x256_S10000x128_S256x128_0_0_1_1_n_n 10000 rfl rfl).symm k) = ix2 k d := funext fun a => Fin.ext (by
    match a with
    | ⟨0, _⟩ => exact (rhs_inner_0 _ _).trans hk
    | ⟨1, _⟩ => exact rhs_inner_1 _ _)
  rw [el, er]

/-- The second product at an entry: (x w)[i, d] is the sum over the columns j of x[i, j] w[j, d]. -/
theorem outer_apply (x : FVec Ideal S10000x256 .bf16) (w : FVec Ideal S256x128 .bf16) (p : Fin 10000) (d : Fin 128) :
    matmul (F := Ideal) dot_S10000x256_S256x128_S10000x128_1_0_0_1_n_n none x w (constant (F := Ideal) S10000x128 .f32 0x00000000#32) (ix2 p d)
      = ∑ j : Fin 256, x (ix2 p j) * w (ix2 j d) := by
  simp only [matmul]
  rw [Ideal.matmul_constant_zero_apply, ← Equiv.sum_comp (ValueIdx.contrEquiv1 dot_S10000x256_S256x128_S10000x128_1_0_0_1_n_n 256 rfl rfl).symm]
  refine Finset.sum_congr rfl fun k _ => ?_
  have hk := ValueIdx.contrEquiv1_symm_val dot_S10000x256_S256x128_S10000x128_1_0_0_1_n_n 256 rfl rfl k
  have el : dot_S10000x256_S256x128_S10000x128_1_0_0_1_n_n.lhsIdx (ix2 p d) ((ValueIdx.contrEquiv1 dot_S10000x256_S256x128_S10000x128_1_0_0_1_n_n 256 rfl rfl).symm k) = ix2 p k := funext fun a => Fin.ext (by
    match a with
    | ⟨0, _⟩ => exact lhs_outer_0 _ _
    | ⟨1, _⟩ => exact (lhs_outer_1 _ _).trans hk)
  have er : dot_S10000x256_S256x128_S10000x128_1_0_0_1_n_n.rhsIdx (ix2 p d) ((ValueIdx.contrEquiv1 dot_S10000x256_S256x128_S10000x128_1_0_0_1_n_n 256 rfl rfl).symm k) = ix2 k d := funext fun a => Fin.ext (by
    match a with
    | ⟨0, _⟩ => exact (rhs_outer_0 _ _).trans hk
    | ⟨1, _⟩ => exact rhs_outer_1 _ _)
  rw [el, er]

/-- A strip's two products composed, at an entry: the strip recast, times (its transpose times the embeddings, recast). -/
theorem through_apply (e : Vec Ideal S10000x128 .bf16) (x : Vec Ideal S10000x256 .f32) (i : S10000x128.Idx) :
    matmul (F := Ideal) dot_S10000x256_S256x128_S10000x128_1_0_0_1_n_n none (truncf .bf16 x bitsLt_bf16_f32)
      (truncf .bf16 (matmul (F := Ideal) (φ₂ := .bf16) dot_S10000x256_S10000x128_S256x128_0_0_1_1_n_n none (truncf .bf16 x bitsLt_bf16_f32) e
        (constant (F := Ideal) S256x128 .f32 0x00000000#32)) bitsLt_bf16_f32)
      (constant (F := Ideal) S10000x128 .f32 0x00000000#32) i = through e x i := by
  obtain ⟨p, q, rfl⟩ : ∃ (p : Fin 10000) (q : Fin 128), i = ix2 p q := ⟨i 0, i 1, eq_ix2 i⟩
  rw [outer_apply]
  unfold through
  refine Finset.sum_congr rfl fun j _ => ?_
  rw [truncf_apply, truncf_apply, inner_apply]
  refine congrArg (x (ix2 p j) * ·) (Finset.sum_congr rfl fun k _ => ?_)
  rw [truncf_apply]

/-- The recast embeddings are the embeddings. -/
theorem pay1_eq (v27 : Vec Ideal S10000x128 .f32) : k0_pay1 (F := Ideal) v27 = v27 := by
  unfold k0_pay1
  funext i
  rw [shapeCast_self, truncf_apply]

/-- The first strip's product. -/
theorem pay2_eq (v3 : Vec Ideal S10000x128 .bf16) (v4 : Vec Ideal S10000x256 .f32) :
    k0_pay2 (F := Ideal) v3 v4 = through v3 v4 := by
  funext i
  unfold k0_pay2
  exact through_apply v3 v4 i

/-- The second strip's product. -/
theorem pay3_eq (v3 : Vec Ideal S10000x128 .bf16) (v6 : Vec Ideal S10000x256 .f32) :
    k0_pay3 (F := Ideal) v3 v6 = through v3 v6 := by
  funext i
  unfold k0_pay3
  exact through_apply v3 v6 i

/-- What the first point stores as the running sum: the two products added. -/
theorem pay5_eq (v3 : Vec Ideal S10000x128 .bf16) (v4 v6 : Vec Ideal S10000x256 .f32) :
    k0_pay5 (F := Ideal) v3 v4 v6 = fun i => through v3 v4 i + through v3 v6 i := by
  funext i
  unfold k0_pay5 k0_pay4
  rw [pay2_eq, pay3_eq, shapeCast_self, truncf_apply, addf_apply]

/-- What a middle point stores as the running sum: what it held, plus the two products added. -/
theorem pay6_eq (v3 : Vec Ideal S10000x128 .bf16) (v4 v6 : Vec Ideal S10000x256 .f32) (v27 : Vec Ideal S10000x128 .bf16) :
    k0_pay6 (F := Ideal) v3 v4 v6 v27 = fun i => v27 i + (through v3 v4 i + through v3 v6 i) := by
  funext i
  unfold k0_pay6 k0_pay4
  rw [pay2_eq, pay3_eq, shapeCast_self, addf_apply, truncf_apply, addf_apply]

/-- What the last point stores as the output: the running sum, plus the two products added. -/
theorem pay7_eq (v3 : Vec Ideal S10000x128 .bf16) (v4 v6 : Vec Ideal S10000x256 .f32) (v27 : Vec Ideal S10000x128 .bf16) :
    k0_pay7 (F := Ideal) v3 v4 v6 v27 = fun i => v27 i + (through v3 v4 i + through v3 v6 i) := by
  funext i
  unfold k0_pay7
  rw [pay2_eq, pay3_eq, addf_apply, extf_apply, addf_apply]

end Cert.KernelIdeal.Val

end
-- ==== Proof.LibSumBlocks.lean ====
/-
  Two facts about finite sums used to read an accumulator that is filled block by block.

  * A sum over nb·sz entries is the sum over the nb blocks of the sums over each block's sz entries (entry sz·j + r is
    entry r of block j).
  * An accumulator that is reset at every P-th step and otherwise adds to what the step before left — o t = S t when
    P divides t, o t = o (t - 1) + S t otherwise — holds after step t the sum of S over the steps since the last reset.
-/
import Mathlib.Data.EReal.Basic
import Mathlib.Algebra.BigOperators.Fin
import Mathlib.Algebra.BigOperators.Intervals

namespace Cert.SumLib

open scoped BigOperators

/-- A sum over nb·sz entries, block by block: entry sz·j + r is entry r of block j. -/
theorem sum_blocks {M : Type} [AddCommMonoid M] (nb sz : ℕ) (f : Fin (nb * sz) → M)
    (hb : ∀ (j : Fin nb) (r : Fin sz), sz * j.val + r.val < nb * sz) :
    ∑ n : Fin (nb * sz), f n = ∑ j : Fin nb, ∑ r : Fin sz, f ⟨sz * j.val + r.val, hb j r⟩ := by
  rw [← (finProdFinEquiv (m := nb) (n := sz)).sum_comp f, Fintype.sum_prod_type]
  refine Finset.sum_congr rfl fun j _ => Finset.sum_congr rfl fun r _ => congrArg f (Fin.ext ?_)
  simp [finProdFinEquiv, Nat.add_comm]

/-- The sum over 8192 rows as the sum over 16 blocks of 512 rows. -/
theorem sum_16x512 {M : Type} [AddCommMonoid M] (f : Fin 8192 → M) :
    ∑ n : Fin 8192, f n = ∑ j : Fin 16, ∑ r : Fin 512, f ⟨512 * j.val + r.val, by have := j.isLt; have := r.isLt; omega⟩ :=
  sum_blocks 16 512 f fun j r => by have := j.isLt; have := r.isLt; omega

/-- The sum over 8192 rows as the sum over 8 blocks of 1024 rows. -/
theorem sum_8x1024 {M : Type} [AddCommMonoid M] (f : Fin 8192 → M) :
    ∑ n : Fin 8192, f n = ∑ j : Fin 8, ∑ r : Fin 1024, f ⟨1024 * j.val + r.val, by have := j.isLt; have := r.isLt; omega⟩ :=
  sum_blocks 8 1024 f fun j r => by have := j.isLt; have := r.isLt; omega

/-- One step back inside a block: when P does not divide t, the step before has the remainder one less. -/
theorem pred_mod (P : ℕ) (hP : 0 < P) (t : ℕ) (hz : t % P ≠ 0) : (t - 1) % P = t % P - 1 := by
  have hdm := Nat.div_add_mod t P
  have hlt := Nat.mod_lt t hP
  have e : t - 1 = (t % P - 1) + P * (t / P) := by omega
  rw [e, Nat.add_mul_mod_self_left, Nat.mod_eq_of_lt (by omega)]

/-- The closed form below a bound, by induction on the step: a reset step holds its own term; any other step adds
    its term to the sum the step before holds, which has the same block start. -/
theorem acc_closed_aux {M : Type} [AddCommMonoid M] (P N : ℕ) (hP : 0 < P) (o S : ℕ → M)
    (h0 : ∀ t, t < N → t % P = 0 → o t = S t) (h1 : ∀ t, t < N → t % P ≠ 0 → o t = o (t - 1) + S t) (t : ℕ) (ht : t < N) :
    o t = ∑ j ∈ Finset.range (t % P + 1), S (t - t % P + j) := by
  induction t using Nat.strong_induction_on with
  | _ t ih =>
    by_cases hz : t % P = 0
    · rw [h0 t ht hz, hz]; simp
    · have hle : t % P ≤ t := Nat.mod_le t P
      have hm := pred_mod P hP t hz
      have e1 : t % P - 1 + 1 = t % P := by omega
      have e2 : t - 1 - (t % P - 1) = t - t % P := by omega
      have e3 : t - t % P + t % P = t := Nat.sub_add_cancel hle
      rw [h1 t ht hz, ih (t - 1) (by omega) (by omega), hm, Finset.sum_range_succ _ (t % P), e1, e2, e3]

/-- The accumulator after step t: the sum of the steps' terms since the last reset (steps t - t % P … t). -/
theorem acc_closed {M : Type} [AddCommMonoid M] (P : ℕ) (hP : 0 < P) (o S : ℕ → M) (h0 : ∀ t, t % P = 0 → o t = S t)
    (h1 : ∀ t, t % P ≠ 0 → o t = o (t - 1) + S t) (t : ℕ) :
    o t = ∑ j ∈ Finset.range (t % P + 1), S (t - t % P + j) :=
  acc_closed_aux P (t + 1) hP o S (fun t _ => h0 t) (fun t _ => h1 t) t (Nat.lt_succ_self t)

/-- The same for a run of steps bounded by N (the accumulator is only defined below N). -/
theorem acc_closed_lt {M : Type} [AddCommMonoid M] (P N : ℕ) (hP : 0 < P) (o S : ℕ → M) (h0 : ∀ t, t < N → t % P = 0 → o t = S t)
    (h1 : ∀ t, t < N → t % P ≠ 0 → o t = o (t - 1) + S t) (t : ℕ) (ht : t < N) :
    o t = ∑ j ∈ Finset.range (t % P + 1), S (t - t % P + j) :=
  acc_closed_aux P N hP o S h0 h1 t ht

end Cert.SumLib
-- ==== Proof.Spec.lean ====
/-
  The function both programs compute, and the one law that joins their two arrangements of it.

  With A the 10000 x 2048 adjacency matrix and E the 10000 x 128 embedding matrix, the result is A (Aᵀ E):
  entry (i, d) is the sum over the 2048 columns j of A[i, j] times lat[j, d], where lat[j, d] is the sum over the
  10000 rows k of A[k, j] E[k, d].

  The kernel takes the columns in four pairs of strips of 256: point t adds the contribution of columns
  512 t … 512 t + 255 to that of columns 512 t + 256 … 512 t + 511, and the four points' pairs are added in order.
  The sum over 2048 columns is the sum over the eight strips (a sum over eight blocks of 256), regrouped; only the
  associativity and commutativity of addition on the extended reals are used, so no finiteness is needed.
-/
import Idealize.ShloMosaic.Lib.ValueIdx
import proofs.«134454_g6751688590051_cont_9to1c4b_755_28_alg».proof.Proof.LibSumBlocks

noncomputable section

namespace Cert.Spec

open Idealize.ShloMosaic Idealize.ShloMosaic.ValueIdx
open scoped BigOperators

abbrev SA : Shape := ⟨2, ![10000, 2048]⟩
abbrev SE : Shape := ⟨2, ![10000, 128]⟩

/-- lat = Aᵀ E at an entry: column j of A against column d of E. -/
def lat (adj : SA.Idx → EReal) (emb : SE.Idx → EReal) (j : Fin 2048) (d : Fin 128) : EReal :=
  ∑ k : Fin 10000, adj (ix2 k j) * emb (ix2 k d)

/-- The result A (Aᵀ E) at an entry. -/
def G (adj : SA.Idx → EReal) (emb : SE.Idx → EReal) : SE.Idx → EReal :=
  fun i => ∑ j : Fin 2048, adj (ix2 (i 0) j) * lat adj emb j (i 1)

/-- Column r of strip b (the strips are 256 columns wide, eight of them). -/
def col (b : Fin 8) (r : Fin 256) : Fin 2048 := ⟨256 * b.val + r.val, by have := b.isLt; have := r.isLt; omega⟩

/-- Strip b's contribution to entry i of the result. -/
def strip (adj : SA.Idx → EReal) (emb : SE.Idx → EReal) (b : Fin 8) (i : SE.Idx) : EReal :=
  ∑ r : Fin 256, adj (ix2 (i 0) (col b r)) * lat adj emb (col b r) (i 1)

/-- The result is the eight strips' contributions, paired and added as the kernel's four points do. -/
theorem G_eq_strips (adj : SA.Idx → EReal) (emb : SE.Idx → EReal) (i : SE.Idx) :
    G adj emb i = (((strip adj emb 0 i + strip adj emb 1 i) + (strip adj emb 2 i + strip adj emb 3 i))
      + (strip adj emb 4 i + strip adj emb 5 i)) + (strip adj emb 6 i + strip adj emb 7 i) := by
  unfold G
  have h := Cert.SumLib.sum_blocks (M := EReal) 8 256 (fun j : Fin (8 * 256) => adj (ix2 (i 0) j) * lat adj emb j (i 1))
    (fun j r => by have := j.isLt; have := r.isLt; omega)
  have h' : (∑ j : Fin 2048, adj (ix2 (i 0) j) * lat adj emb j (i 1))
      = ∑ b : Fin 8, strip adj emb b i := h
  rw [h', Fin.sum_univ_eight]
  abel

end Cert.Spec

end
-- ==== Proof.KI.Value.lean ====
/-
  The idealized kernel's result, entry by entry: A (Aᵀ E).

  Point t stages columns 512 t … 512 t + 255 of the adjacency matrix A as its first strip and columns
  512 t + 256 … 512 t + 511 as its second: strips 2t and 2t + 1 of the eight. The embeddings' block and the output's
  block are their whole arrays. At the ideal values the recast embeddings are the embeddings E, so after every point
  the first scratch buffer holds E; a strip multiplied through against E is that strip's contribution to A (Aᵀ E); the
  second scratch buffer holds the contributions of the strips seen so far, added in the kernel's order; and the last
  point stores the sum of all eight into the output's buffer, which is written back over the whole result array.
-/
import proofs.«134454_g6751688590051_cont_9to1c4b_755_28_alg».proof.Proof.KI.Pieces
import proofs.«134454_g6751688590051_cont_9to1c4b_755_28_alg».proof.Proof.KI.Payload
import proofs.«134454_g6751688590051_cont_9to1c4b_755_28_alg».proof.Proof.Spec

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable {F : FTy → Type} [FloatOps F]

variable (m : (ℓ : Loc nD τ sig) → Buf (Elt Ideal) ℓ) (ρ : Dev nD → PrngReg)

/-- The two argument arrays and the blocks of the three input windows, at their literal types. -/
abbrev adj (c : Dev nD) : Vec Ideal S10000x2048 .f32 := V m c main_arg0
abbrev emb (c : Dev nD) : Vec Ideal S10000x128 .f32 := V m c main_arg1
abbrev blkA (c : Dev nD) (t : Fin cfg0.N) : Vec Ideal S10000x256 .f32 := iblk m c 0 t
abbrev blkB (c : Dev nD) (t : Fin cfg0.N) : Vec Ideal S10000x256 .f32 := iblk m c 1 t
abbrev blkE (c : Dev nD) (t : Fin cfg0.N) : Vec Ideal S10000x128 .f32 := iblk m c 2 t

/-- The windows' block indices at a point: strips 2t and 2t + 1; the embeddings and the output whole. -/
theorem idx_facts : ∀ t : Fin cfg0.N, win0_0.index t (0 : Fin 2) = 0 ∧ win0_0.index t (1 : Fin 2) = 2 * t.val
    ∧ win0_1.index t (0 : Fin 2) = 0 ∧ win0_1.index t (1 : Fin 2) = 2 * t.val + 1
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, win0_0.index t (0 : Fin 2) = 0 ∧ win0_0.index t (1 : Fin 2) = 2 * t.val
    ∧ win0_1.index t (0 : Fin 2) = 0 ∧ win0_1.index t (1 : Fin 2) = 2 * t.val + 1
    ∧ win0_2.index t (0 : Fin 2) = 0 ∧ win0_2.index t (1 : Fin 2) = 0
    ∧ win0_3.index t (0 : Fin 2) = 0 ∧ win0_3.index t (1 : Fin 2) = 0)

/-- The first strip window's block at point t is strip 2t of A. -/
theorem blkA_apply (c : Dev nD) (t : Fin cfg0.N) (b : Fin 8) (hb : b.val = 2 * t.val) (p : Fin 10000) (j : Fin 256) :
    blkA m c t (ix2 p j) = adj m c (ix2 p (Cert.Spec.col b j)) := by
  show V m c main_arg0 (((cfg0.win 0).blk t).view.emb (ix2 p j)) = V m c main_arg0 (ix2 p (Cert.Spec.col b j))
  refine congrArg (V m c main_arg0) ?_
  obtain ⟨e0, e1, -, -, -, -, -, -⟩ := idx_facts t
  funext a; apply Fin.ext
  match a with
  | ⟨0, _⟩ => show win0_0.index t (0 : Fin 2) * 10000 + 1 * p.val = p.val; omega
  | ⟨1, _⟩ => show win0_0.index t (1 : Fin 2) * 256 + 1 * j.val = 256 * b.val + j.val; omega

/-- The second strip window's block at point t is strip 2t + 1 of A. -/
theorem blkB_apply (c : Dev nD) (t : Fin cfg0.N) (b : Fin 8) (hb : b.val = 2 * t.val + 1) (p : Fin 10000) (j : Fin 256) :
    blkB m c t (ix2 p j) = adj m c (ix2 p (Cert.Spec.col b j)) := by
  show V m c main_arg0 (((cfg0.win 1).blk t).view.emb (ix2 p j)) = V m c main_arg0 (ix2 p (Cert.Spec.col b j))
  refine congrArg (V m c main_arg0) ?_
  obtain ⟨-, -, e0, e1, -, -, -, -⟩ := idx_facts t
  funext a; apply Fin.ext
  match a with
  | ⟨0, _⟩ => show win0_1.index t (0 : Fin 2) * 10000 + 1 * p.val = p.val; omega
  | ⟨1, _⟩ => show win0_1.index t (1 : Fin 2) * 256 + 1 * j.val = 256 * b.val + j.val; omega

/-- The embeddings' block is the embeddings, at every point. -/
theorem blkE_eq (c : Dev nD) (t : Fin cfg0.N) : blkE m c t = emb m c := by
  funext y
  show V m c main_arg1 (((cfg0.win 2).blk t).view.emb y) = V m c main_arg1 y
  refine congrArg (V m c main_arg1) ?_
  obtain ⟨-, -, -, -, e0, e1, -, -⟩ := idx_facts t
  funext a; apply Fin.ext
  match a with
  | ⟨0, _⟩ => show win0_2.index t (0 : Fin 2) * 10000 + 1 * (y 0).val = (y 0).val; omega
  | ⟨1, _⟩ => show win0_2.index t (1 : Fin 2) * 128 + 1 * (y 1).val = (y 1).val; omega

/-- A strip's block multiplied through against the embeddings is that strip's contribution to the result. -/
theorem through_A (c : Dev nD) (t : Fin cfg0.N) (b : Fin 8) (hb : b.val = 2 * t.val) (i : S10000x128.Idx) :
    through (emb m c) (blkA m c t) i = Cert.Spec.strip (adj m c) (emb m c) b i := by
  obtain ⟨p, q, rfl⟩ : ∃ (p : Fin 10000) (q : Fin 128), i = ix2 p q := ⟨i 0, i 1, eq_ix2 i⟩
  show (∑ j : Fin 256, blkA m c t (ix2 p j) * ∑ k : Fin 10000, blkA m c t (ix2 k j) * emb m c (ix2 k q))
    = ∑ r : Fin 256, adj m c (ix2 p (Cert.Spec.col b r)) * ∑ k : Fin 10000, adj m c (ix2 k (Cert.Spec.col b r)) * emb m c (ix2 k q)
  refine Finset.sum_congr rfl fun j _ => ?_
  rw [blkA_apply m c t b hb]
  refine congrArg (adj m c (ix2 p (Cert.Spec.col b j)) * ·) (Finset.sum_congr rfl fun k _ => ?_)
  rw [blkA_apply m c t b hb]
theorem through_B (c : Dev nD) (t : Fin cfg0.N) (b : Fin 8) (hb : b.val = 2 * t.val + 1) (i : S10000x128.Idx) :
    through (emb m c) (blkB m c t) i = Cert.Spec.strip (adj m c) (emb m c) b i := by
  obtain ⟨p, q, rfl⟩ : ∃ (p : Fin 10000) (q : Fin 128), i = ix2 p q := ⟨i 0, i 1, eq_ix2 i⟩
  show (∑ j : Fin 256, blkB m c t (ix2 p j) * ∑ k : Fin 10000, blkB m c t (ix2 k j) * emb m c (ix2 k q))
    = ∑ r : Fin 256, adj m c (ix2 p (Cert.Spec.col b r)) * ∑ k : Fin 10000, adj m c (ix2 k (Cert.Spec.col b r)) * emb m c (ix2 k q)
  refine Finset.sum_congr rfl fun j _ => ?_
  rw [blkB_apply m c t b hb]
  refine congrArg (adj m c (ix2 p (Cert.Spec.col b j)) * ·) (Finset.sum_congr rfl fun k _ => ?_)
  rw [blkB_apply m c t b hb]

/-! ## The scratch buffers and the output's buffer, point by point -/

/-- After every point the first scratch buffer holds the embeddings. -/
theorem s0_at (c : Dev nD) : ∀ (n : ℕ) (hn : n < cfg0.N), (outsAt0 m c n hn).2.1 = emb m c
  | 0, hn => by
    rw [show outsAt0 m c 0 hn = _ from outsAt0_A m c ⟨0, hn⟩ rfl]
    dsimp only
    rw [sout0_A_0_eq, pay1_eq]
    exact blkE_eq m c _
  | n + 1, hn => by
    by_cases h3 : n + 1 = 3
    · rw [show outsAt0 m c (n + 1) hn = _ from outsAt0_C m c ⟨n + 1, hn⟩ (Nat.succ_ne_zero n) h3]
      dsimp only
      exact s0_at c _ _
    · rw [show outsAt0 m c (n + 1) hn = _ from outsAt0_B m c ⟨n + 1, hn⟩ (Nat.succ_ne_zero n) h3]
      dsimp only
      exact s0_at c _ _

/-- After the first point the second scratch buffer holds the contributions of strips 0 and 1. -/
theorem acc_0 (c : Dev nD) (n : ℕ) (hn : n < cfg0.N) (h : n = 0) :
    (outsAt0 m c n hn).2.2 = fun i => Cert.Spec.strip (adj m c) (emb m c) 0 i + Cert.Spec.strip (adj m c) (emb m c) 1 i := by
  subst h
  rw [show outsAt0 m c 0 hn = _ from outsAt0_A m c ⟨0, hn⟩ rfl]
  dsimp only
  rw [sout0_A_1_eq, pay1_eq, pay5_eq]
  funext i
  show through (blkE m c ⟨0, hn⟩) (blkA m c ⟨0, hn⟩) i + through (blkE m c ⟨0, hn⟩) (blkB m c ⟨0, hn⟩) i = _
  rw [blkE_eq, through_A m c ⟨0, hn⟩ 0 rfl, through_B m c ⟨0, hn⟩ 1 rfl]

/-- After the second point: strips 0 to 3. -/
theorem acc_1 (c : Dev nD) (n : ℕ) (hn : n < cfg0.N) (h : n = 1) :
    (outsAt0 m c n hn).2.2 = fun i => (Cert.Spec.strip (adj m c) (emb m c) 0 i + Cert.Spec.strip (adj m c) (emb m c) 1 i)
      + (Cert.Spec.strip (adj m c) (emb m c) 2 i + Cert.Spec.strip (adj m c) (emb m c) 3 i) := by
  subst h
  rw [show outsAt0 m c 1 hn = _ from outsAt0_B m c ⟨1, hn⟩ (show (1 : ℕ) ≠ 0 by decide) (show (1 : ℕ) ≠ 3 by decide)]
  dsimp only
  rw [sout0_B_1_eq, pay6_eq, s0_at m c, acc_0 m c _ _ rfl]
  funext i
  show _ + (through (emb m c) (blkA m c ⟨1, hn⟩) i + through (emb m c) (blkB m c ⟨1, hn⟩) i) = _
  rw [through_A m c ⟨1, hn⟩ 2 rfl, through_B m c ⟨1, hn⟩ 3 rfl]

/-- After the third point: strips 0 to 5. -/
theorem acc_2 (c : Dev nD) (n : ℕ) (hn : n < cfg0.N) (h : n = 2) :
    (outsAt0 m c n hn).2.2 = fun i => ((Cert.Spec.strip (adj m c) (emb m c) 0 i + Cert.Spec.strip (adj m c) (emb m c) 1 i)
      + (Cert.Spec.strip (adj m c) (emb m c) 2 i + Cert.Spec.strip (adj m c) (emb m c) 3 i))
      + (Cert.Spec.strip (adj m c) (emb m c) 4 i + Cert.Spec.strip (adj m c) (emb m c) 5 i) := by
  subst h
  rw [show outsAt0 m c 2 hn = _ from outsAt0_B m c ⟨2, hn⟩ (show (2 : ℕ) ≠ 0 by decide) (show (2 : ℕ) ≠ 3 by decide)]
  dsimp only
  rw [sout0_B_1_eq, pay6_eq, s0_at m c, acc_1 m c _ _ rfl]
  funext i
  show _ + (through (emb m c) (blkA m c ⟨2, hn⟩) i + through (emb m c) (blkB m c ⟨2, hn⟩) i) = _
  rw [through_A m c ⟨2, hn⟩ 4 rfl, through_B m c ⟨2, hn⟩ 5 rfl]

/-- The last point leaves the result A (Aᵀ E) in the output's buffer. -/
theorem out_3 (c : Dev nD) (n : ℕ) (hn : n < cfg0.N) (h : n = 3) :
    (outsAt0 m c n hn).1 = Cert.Spec.G (adj m c) (emb m c) := by
  subst h
  rw [show outsAt0 m c 3 hn = _ from outsAt0_C m c ⟨3, hn⟩ (show (3 : ℕ) ≠ 0 by decide) rfl]
  dsimp only
  rw [out0_C_3_eq, pay7_eq, s0_at m c, acc_2 m c _ _ rfl]
  funext i
  show _ + (through (emb m c) (blkA m c ⟨3, hn⟩) i + through (emb m c) (blkB m c ⟨3, hn⟩) i) = _
  rw [through_A m c ⟨3, hn⟩ 6 rfl, through_B m c ⟨3, hn⟩ 7 rfl, Cert.Spec.G_eq_strips]

/-! ## The result array after the run -/

/-- What the one write-back writes is the result, read through the output's (whole) block. -/
theorem flushed3_eq (c : Dev nD) (t : Fin cfg0.N) (hf : (cfg0.win 3).flush t = true) :
    (dats m 0 c).flushed 3 t = ((cfg0.win 3).blk t).view.read (Elt Ideal) (Cert.Spec.G (adj m c) (emb m c)) := by
  have h3 : t.val = 3 := by
    have := (flush0_3 t).mp hf
    have hN : t.val < 4 := lt_of_lt_of_eq t.isLt (show cfg0.N = 4 from N_0)
    omega
  show (cfg0.win 3).cut (grid0.coords t) ((dats m 0 c).after 3 t) = _
  rw [after0_3, out_3 m c t.val t.isLt h3]
  funext j
  show Cert.Spec.G (adj m c) (emb m c) j = Cert.Spec.G (adj m c) (emb m c) (((cfg0.win 3).blk t).view.emb j)
  refine congrArg (Cert.Spec.G (adj m c) (emb m c)) ?_
  obtain ⟨-, -, -, -, -, -, e0, e1⟩ := idx_facts t
  funext a; apply Fin.ext
  match a with
  | ⟨0, _⟩ => show (j 0).val = win0_3.index t (0 : Fin 2) * 10000 + 1 * (j 0).val; omega
  | ⟨1, _⟩ => show (j 1).val = win0_3.index t (1 : Fin 2) * 128 + 1 * (j 1).val; omega

/-- Every entry of the result array lies in the block the last point writes back. -/
theorem cover3 (i : S10000x128.Idx) :
    ∃ t : Fin cfg0.N, (cfg0.win 3).flush t = true ∧ i ∈ ((cfg0.win 3).blk t).view.set := by
  refine ⟨t0_3, (flush0_3 t0_3).mpr rfl, ?_⟩
  show i ∈ ((View.whole main_v0).slice (win0_3.rect t0_3)).set
  rw [View.set_slice_whole, Rect.mem_set_unit]
  obtain ⟨-, -, -, -, -, -, e0, e1⟩ := idx_facts t0_3
  intro a
  match a with
  | ⟨0, _⟩ =>
    show win0_3.index t0_3 (0 : Fin 2) * 10000 ≤ (i 0).val ∧ (i 0).val < win0_3.index t0_3 (0 : Fin 2) * 10000 + 10000
    have := idx2_lt0 i; omega
  | ⟨1, _⟩ =>
    show win0_3.index t0_3 (1 : Fin 2) * 128 ≤ (i 1).val ∧ (i 1).val < win0_3.index t0_3 (1 : Fin 2) * 128 + 128
    have := idx2_lt1 i; omega

/-- The result array after the run. -/
theorem final3 (c : Dev nD) : (dats m 0 c).arrAt 3 cfg0.N = Cert.Spec.G (adj m c) (emb m c) :=
  (dats m 0 c).arrAt_eq_of_cover 3 (Cert.Spec.G (adj m c) (emb m c)) (fun t hf => flushed3_eq m c t hf) (cover3 )

/-- The run, read: the result array ends at A (Aᵀ E) of the argument arrays, which end unchanged. -/
theorem run : θ_run defs (onTc (τ := τ) (main (F := Ideal))) ⟨m, fun _ => 0, ρ⟩ fun r => ∀ c : Dev nD,
      r.2.mem ((c.tc : Thread nD τ).loc main_v0) = Cert.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c 3).trans (final3 m c),
     (h c 0).trans (((dats m 0 c).arrAt_in 0 rfl _).trans (A_eq m c 0)),
     (h c 2).trans (((dats m 0 c).arrAt_in 2 rfl _).trans (A_eq m c 2))⟩) (run_main m ρ)

end Cert.KernelIdeal.Val

end
-- ==== Proof.RefValue.lean ====
/-
  The reference's result, entry by entry.

  The reference transposes the adjacency matrix, multiplies the transpose by the embeddings (a 2048 x 128 matrix lat),
  and multiplies the adjacency matrix by that. Read one operation at a time at the ideal values, entry (i, d) of the
  result is the sum over the 2048 columns j of A[i, j] times the sum over the 10000 rows k of A[k, j] E[k, d].
-/
import proofs.«134454_g6751688590051_cont_9to1c4b_755_28_alg».proof.Proof.Gen.ReferenceIdeal.Read
import proofs.«134454_g6751688590051_cont_9to1c4b_755_28_alg».proof.Proof.Spec

noncomputable section

namespace Cert.ReferenceIdeal.RefValue

open Cert.ReferenceIdeal Cert.ReferenceIdeal.Gen Cert.ReferenceIdeal.Read
open Idealize.ShloMosaic Idealize.ShloMosaic.ValueIdx
open scoped BigOperators

/-- The reference's result is A (Aᵀ E), entry by entry. -/
theorem ref_eq (x0 : (⟨S10000x2048, .f32⟩ : BufTy).Contents (Elt Ideal)) (x1 : (⟨S10000x128, .f32⟩ : BufTy).Contents (Elt Ideal)) :
    val_main_v2 (F := Ideal) x0 x1 = Cert.Spec.G x0 x1 := by
  funext i
  have e2 : ∀ j : Fin 2048, lidx_main_v2 i j = ix2 (i 0) j := fun j => by
    funext a; match a with | ⟨0, _⟩ => rfl | ⟨1, _⟩ => rfl
  have e0 : ∀ (j : Fin 2048) (k : Fin 10000),
      idx_main_v0 (lidx_main_v1 (ridx_main_v2 i j) k) = ix2 k j := fun j k => by
    funext a; match a with | ⟨0, _⟩ => rfl | ⟨1, _⟩ => rfl
  have e1 : ∀ (j : Fin 2048) (k : Fin 10000),
      ridx_main_v1 (ridx_main_v2 i j) k = ix2 k (i 1) := fun j k => by
    funext a; match a with | ⟨0, _⟩ => rfl | ⟨1, _⟩ => rfl
  rw [val_main_v2_apply]
  unfold Cert.Spec.G Cert.Spec.lat
  refine Finset.sum_congr rfl fun j _ => ?_
  rw [val_main_v1_apply, e2]
  congr 1
  refine Finset.sum_congr rfl fun k _ => ?_
  rw [val_main_v0_apply, e0, e1]
  rfl

end Cert.ReferenceIdeal.RefValue

end
-- ==== Proof.lean ====
/-
  The certificate: a kernel that computes A (Aᵀ E) in one pass over the 10000 x 2048 adjacency matrix A, against the
  reference that transposes A, multiplies by the 10000 x 128 embeddings E, and multiplies A by the product.

  The kernel takes the columns of A in eight strips of 256, two per grid point: a strip x contributes x (xᵀ E) to
  the result, the contributions are added into a running sum kept between the points, and the last point adds the
  last two and writes the result. At the ideal values (a float an extended real, every operation exact, a change of
  format the identity) a strip's contribution at entry (i, d) is the sum over the strip's columns j of
  A[i, j] · Σ_k A[k, j] E[k, d], and the reference's entry is the same sum over all 2048 columns. The two agree because
  a sum over 2048 columns is the sum of the eight strips' sums, regrouped — associativity and commutativity of addition
  on the extended reals only, so the finiteness of the inputs is never used.

  The three frames: each kernel program's run is the pipeline's launch with the adjacency matrix's share dealt by
  halves between the two strip windows that read it; the reference's is its run with the result dropped. No operation
  of the kernel was rewritten for the ideal reading, so there is nothing to preserve.
-/
import proofs.«134454_g6751688590051_cont_9to1c4b_755_28_alg».proof.Defs
import proofs.«134454_g6751688590051_cont_9to1c4b_755_28_alg».proof.Proof.Gen.Kernel
import proofs.«134454_g6751688590051_cont_9to1c4b_755_28_alg».proof.Proof.Gen.KernelIdeal
import proofs.«134454_g6751688590051_cont_9to1c4b_755_28_alg».proof.Proof.Gen.ReferenceIdeal
import proofs.«134454_g6751688590051_cont_9to1c4b_755_28_alg».proof.Proof.Gen.Pre_finite_inputs
import proofs.«134454_g6751688590051_cont_9to1c4b_755_28_alg».proof.Proof.K.Frame
import proofs.«134454_g6751688590051_cont_9to1c4b_755_28_alg».proof.Proof.KI.Value
import proofs.«134454_g6751688590051_cont_9to1c4b_755_28_alg».proof.Proof.RefValue

noncomputable section

namespace Cert.Proof

open Idealize.ShloMosaic Idealize.ShloMosaic.TcCoe Idealize.SL.Sem

/-- The word-level kernel runs to the end and leaves its two argument arrays as they were. -/
theorem frame_k : Cert.frame_Kernel := fun m ρ _ => Cert.Kernel.Fr.frame m ρ

/-- So does the idealized kernel. -/
theorem frame_ki : Cert.frame_KernelIdeal := fun m ρ _ => Cert.KernelIdeal.Fr.frame m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten: nothing to preserve. -/
theorem preserves : Cert.preserves_Kernel_KernelIdeal := trivial

/-- At the ideal values both programs end with A (Aᵀ E) of arguments that agree. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
